-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg6 : FVec F S10 .f32) (main_v13 : IVec S_ 1) (main_v16 : IVec S64x10 1) : IVec S_ 1 :=
  let main_c_5 : IVec S_ 1 := constantI S_ 1 1#1
  let main_v17 : IVec S_ 1 := (fun x v => Host.reduce IntOp.andi x v reducesTo_S64x10_S_d0_1 h_S_) main_v16 main_c_5
  let main_v18 : IVec S_ 1 := andi main_v13 main_v17
  let main_v19 : FVec F S10 .f32 := Host.absf main_arg6
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : IVec S1x1600000 32 := (extractStridedSlice S1x1600000 ![1, 0] · slices_S2x1600000_S1x1600000_1_0) main_arg1
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_c_9 : IVec S_ 1 := constantI S_ 1 1#1
  let main_v28 : IVec S_ 1 := (fun x v => Host.reduce IntOp.andi x v reducesTo_S1600000_S_d0 h_S_) main_v27 main_c_9
  let main_v29 : IVec S_ 1 := andi main_v23 main_v28
  main_v29

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x10 .f32) (main_arg6 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x10 .f32 := Host.absf main_arg5
  let main_cst_4 : FVec F S_ .f32 := constant S_ .f32 0x7F800000#32
  let main_v15 : FVec F S64x10 .f32 := broadcastInDim S64x10 ![] bcast_S_S64x10 main_cst_4
  let main_v16 : IVec S64x10 1 := cmpf .olt main_v14 main_v15
  fn_part1 (F := F) main_arg1 main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1700000x64 : Shape := ⟨2, ![1700000, 64]⟩
abbrev S256 : Shape := ⟨1, ![256]⟩
abbrev S256x1 : Shape := ⟨2, ![256, 1]⟩
abbrev S1x64 : Shape := ⟨2, ![1, 64]⟩
abbrev S256x64 : Shape := ⟨2, ![256, 64]⟩
abbrev S5000x64 : Shape := ⟨2, ![5000, 64]⟩
abbrev S5000x1 : Shape := ⟨2, ![5000, 1]⟩
abbrev S5000x256 : Shape := ⟨2, ![5000, 256]⟩
abbrev S1x10 : Shape := ⟨2, ![1, 10]⟩
abbrev S256x10 : Shape := ⟨2, ![256, 10]⟩

abbrev nBuf : Space → Nat
  | .hbm => 67
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x10, .f32⟩
  | .hbm, ⟨6, _⟩ => ⟨S10, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .bf16⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x64, .bf16⟩
  | .hbm, ⟨42, _⟩ => ⟨S_, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S100000x64, .f32⟩
  | .hbm, ⟨54, _⟩ => ⟨S_, .f32⟩
  | .hbm, ⟨55, _⟩ => ⟨S100000, .f32⟩
  | .hbm, ⟨56, _⟩ => ⟨S_, .f32⟩
  | .hbm, ⟨57, _⟩ => ⟨S256, .f32⟩
  | .hbm, ⟨58, _⟩ => ⟨S100000x1, .i32⟩
  | .hbm, ⟨59, _⟩ => ⟨S256, .f32⟩
  | .hbm, ⟨60, _⟩ => ⟨S256x1, .f32⟩
  | .hbm, ⟨61, _⟩ => ⟨S1x64, .f32⟩
  | .hbm, ⟨62, _⟩ => ⟨S100000x1, .i32⟩
  | .hbm, ⟨63, _⟩ => ⟨S100000x1, .f32⟩
  | .hbm, ⟨64, _⟩ => ⟨S256x64, .f32⟩
  | .hbm, ⟨65, _⟩ => ⟨S1x10, .f32⟩
  | .hbm, ⟨66, _⟩ => ⟨S256x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .bf16⟩
  | .local _ .vmem, ⟨6, _⟩ => ⟨S10000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S5000x1, .i32⟩
  | .local _ .vmem, ⟨12, _⟩ => ⟨S5000x1, .i32⟩
  | .local _ .vmem, ⟨13, _⟩ => ⟨S1x64, .f32⟩
  | .local _ .vmem, ⟨14, _⟩ => ⟨S256x64, .f32⟩
  | .local _ .vmem, ⟨15, _⟩ => ⟨S256x64, .f32⟩
  | .local _ .vmem, ⟨16, _⟩ => ⟨S256x1, .f32⟩
  | .local _ .vmem, ⟨17, _⟩ => ⟨S64x10, .f32⟩
  | .local _ .vmem, ⟨18, _⟩ => ⟨S1x10, .f32⟩
  | .local _ .vmem, ⟨19, _⟩ => ⟨S256x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  bcast_S_S256 : S_.BroadcastsInDim S256 (![] : Fin 0 → Fin S256.rank)
  bcast_S100000_S100000x1_0 : S100000.BroadcastsInDim S100000x1 (![0] : Fin 1 → Fin S100000x1.rank)
  shapeCasts_S256_S256x1 : S256.ShapeCasts S256x1
  shapeCasts_S64_S1x64 : S64.ShapeCasts S1x64
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  iota_S5000x256_d1_w32 : S5000x256.Iotas .tc 32 [1]
  broadcasts_S5000x1_S5000x256 : S5000x1.Broadcasts S5000x256
  natLt_1_32 : 1 < 32
  shapeCasts_S256x64_S256x64 : S256x64.ShapeCasts S256x64
  shapeCasts_S10_S1x10 : S10.ShapeCasts S1x10
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x64 : S256x1.Broadcasts S256x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S100000_S1700000x1_S1700000_n_0_0_1_wf : ScatterDims.WF S100000 S1700000x1 S1700000 [] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S256_S100000x1_S100000_n_0_0_1_wf : ScatterDims.WF S256 S100000x1 S100000 [] [0] [0] 1
  dot_S5000x256_S5000x64_S256x64_0_0_1_1_n_n_wf : DotDims.WF S5000x256 S5000x64 S256x64 [0] [0] [1] [1] [] []
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .i32 = 32 ∨ (Rect.block (s := S100000x1) S5000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S256x64.size a
  hwx1_4 : ∀ i : grid1.Coords, EltTy.bits .f32 = 32 ∨ (Rect.block (s := S256x64) S256x64.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S256x64.size a
  hwx2_0 : ∀ i : grid2.Coords, EltTy.bits .f32 = 32 ∨ (Rect.block (s := S256x64) S256x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S256x1.size a
  hwx2_1 : ∀ i : grid2.Coords, EltTy.bits .f32 = 32 ∨ (Rect.block (s := S256x1) S256x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x10.size a ≤ S64x10.size a
  hwx2_2 : ∀ i : grid2.Coords, EltTy.bits .f32 = 32 ∨ (Rect.block (s := S64x10) S64x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x10.size a ≤ S256x10.size a
  hwx2_4 : ∀ i : grid2.Coords, EltTy.bits .f32 = 32 ∨ (Rect.block (s := S256x10) S256x10.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S256x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S256x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v39) S256x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S256x10.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x10 : Shape := ⟨2, ![64, 10]⟩
abbrev S10 : Shape := ⟨1, ![10]⟩
abbrev S100000x64 : Shape := ⟨2, ![100000, 64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x10, .f32⟩
  | .hbm, ⟨6, _⟩ => ⟨S10, .f32⟩
  | .hbm, ⟨7, _⟩ => ⟨S100000x64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S256x64, .f32⟩
  | .hbm, ⟨75, _⟩ => ⟨S100000x1, .i32⟩
  | .hbm, ⟨76, _⟩ => ⟨S256x64, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S256, .f32⟩
  | .hbm, ⟨81, _⟩ => ⟨S100000x1, .i32⟩
  | .hbm, ⟨82, _⟩ => ⟨S256, .f32⟩
  | .hbm, ⟨83, _⟩ => ⟨S_, .f32⟩
  | .hbm, ⟨84, _⟩ => ⟨S256, .f32⟩
  | .hbm, ⟨85, _⟩ => ⟨S256, .f32⟩
  | .hbm, ⟨86, _⟩ => ⟨S256x1, .f32⟩
  | .hbm, ⟨87, _⟩ => ⟨S256x64, .f32⟩
  | .hbm, ⟨88, _⟩ => ⟨S256x64, .f32⟩
  | .hbm, ⟨89, _⟩ => ⟨S256x10, .f32⟩
  | .hbm, ⟨90, _⟩ => ⟨S1x10, .f32⟩
  | .hbm, ⟨91, _⟩ => ⟨S256x10, .f32⟩
  | .hbm, ⟨92, _⟩ => ⟨S256x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x10_S256x10_1_0_0_1_n_n_wf : DotDims.WF S256x64 S64x10 S256x10 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.Spec.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# A graph convolution with symmetric normalisation, pooled by graph: the two formulas

Nodes `n < 100000` carry features `X n` (128 reals); an edge `e < 1700000` goes from node `src e` to node `dst e`
(the last 100000 edges are the self loops `n → n`). With `deg i` the number of edges into `i` and
`dinv i = deg i ^ (-1/2)` (zero where nothing arrives), the layer sends along each edge the transformed features
`h (src e) = X (src e) · Wc` weighted by `dinv (src e) · dinv (dst e)`, sums what arrives at each node, adds a bias,
clips at zero, sums the nodes of each graph `g < 256`, divides by the graph's node count and applies a last
linear map.  One formula weights every message by both factors before the sum; the other weights the message by
`dinv (src e)` only and multiplies the sum at node `i` by `dinv i` afterwards.  Both are written here over plain
coordinates, with the integer arrays read as they stand.
-/

open scoped BigOperators
open Idealize.ShloMosaic Idealize.ShloMosaic.ValueIdx Idealize.ShloMosaic.StableHlo.Predicate

noncomputable section

namespace Cert.GCN

abbrev S2xE : Shape := ⟨2, ![2, 1600000]⟩
abbrev S1xE : Shape := ⟨2, ![1, 1600000]⟩
abbrev SE : Shape := ⟨1, ![1600000]⟩
abbrev SN : Shape := ⟨1, ![100000]⟩
abbrev SM : Shape := ⟨1, ![1700000]⟩
abbrev SMx1 : Shape := ⟨2, ![1700000, 1]⟩
abbrev S0 : Shape := ⟨0, ![]⟩
abbrev SNx128 : Shape := ⟨2, ![100000, 128]⟩
abbrev SNx64 : Shape := ⟨2, ![100000, 64]⟩
abbrev S128x64 : Shape := ⟨2, ![128, 64]⟩
abbrev S64 : Shape := ⟨1, ![64]⟩
abbrev S64x10 : Shape := ⟨2, ![64, 10]⟩
abbrev S10 : Shape := ⟨1, ![10]⟩

/-! ## The integer side: edge ends, and the wrap of a negative node number -/

/-- Row `r` of the edge array followed by the node numbers `0 … 99999` (the self loops). -/
def endsOf (r : Nat) (h : S2xE.Slices ![r, 0] S1xE) (E : IVec S2xE 32) : IVec SM 32 :=
  concatenate SM 0 [⟨SE, shapeCast SE (extractStridedSlice S1xE ![r, 0] E h) (by decide)⟩, ⟨SN, iotaInDim SN 32 0⟩]
    (by decide : Shape.Concatenates [SE, SN] SM 0)

/-- The source end of every edge. -/
def srcOf (E : IVec S2xE 32) : IVec SM 32 := endsOf 0 (by decide) E
/-- The target end of every edge. -/
def dstOf (E : IVec S2xE 32) : IVec SM 32 := endsOf 1 (by decide) E

/-- A negative node number counted from the end: `v + 100000` where `v < 0`. -/
def wrapOf (v : IVec SM 32) : IVec SM 32 :=
  select (cmpi .slt v (broadcastInDim SM ![] (by decide) (constantI S0 32 0#32)))
    (addi v (broadcastInDim SM ![] (by decide) (constantI S0 32 100000#32))) v

/-- The node a row gather reads for edge `e`: the number read signed and clamped into `0 … 99999`. -/
def rowOf (v : IVec SM 32) (e : Fin 1700000) : Fin 100000 :=
  ⟨min (v (ix1 e)).toInt.toNat (100000 - 1), by omega⟩

/-! ## The float side -/

/-- The word of `1.0`. -/
abbrev one : EReal := Ideal.ofBits .f32 0x3F800000#32

/-- The transformed features `X · Wc`. -/
def hmat (X : FVec Ideal SNx128 .f32) (Wc : FVec Ideal S128x64 .f32) (i : Fin 100000) (j : Fin 64) : EReal :=
  ∑ k : Fin 128, X (ix2 i k) * Wc (ix2 k j)

/-- The in-degree of node `i`: one for every edge whose target, read signed, is `i`. -/
def degAt (dst : IVec SM 32) (i : Fin 100000) : EReal :=
  0 + ∑ e : Fin 1700000, if (dst (ix1 e)).toInt = (i.val : Int) then one else 0

/-- `deg ^ (-1/2)`, and zero where the degree is zero. -/
def dinvAt (dst : IVec SM 32) (i : Fin 100000) : EReal :=
  if 0 < degAt dst i then Ideal.rsqrt (max (degAt dst i) one) else 0

/-- Messages weighted at the source only, summed at the target `i` (targets given by `dstw`). -/
def aggK (X : FVec Ideal SNx128 .f32) (Wc : FVec Ideal S128x64 .f32) (dv : Fin 100000 → EReal)
    (srcw dstw : IVec SM 32) (i : Fin 100000) (j : Fin 64) : EReal :=
  0 + ∑ e : Fin 1700000, if (dstw (ix1 e)).toInt = (i.val : Int)
    then hmat X Wc (rowOf srcw e) j * dv (rowOf srcw e) else 0

/-- The first formula's hidden layer: the sum weighted at the target afterwards, plus the bias, clipped at zero. -/
def hidK (X : FVec Ideal SNx128 .f32) (Wc : FVec Ideal S128x64 .f32) (dv : Fin 100000 → EReal)
    (srcw dstw : IVec SM 32) (bc : FVec Ideal S64 .f32) (i : Fin 100000) (j : Fin 64) : EReal :=
  max (aggK X Wc dv srcw dstw i j * dv i + bc (ix1 j)) 0

/-- Messages weighted by both ends' factors, summed at the target `i` (targets given by `dst`, the weight's target
    end by `dstw`). -/
def aggR (X : FVec Ideal SNx128 .f32) (Wc : FVec Ideal S128x64 .f32) (dv : Fin 100000 → EReal)
    (srcw dstw dst : IVec SM 32) (i : Fin 100000) (j : Fin 64) : EReal :=
  0 + ∑ e : Fin 1700000, if (dst (ix1 e)).toInt = (i.val : Int)
    then hmat X Wc (rowOf srcw e) j * (dv (rowOf srcw e) * dv (rowOf dstw e)) else 0

/-- The second formula's hidden layer. -/
def hidR (X : FVec Ideal SNx128 .f32) (Wc : FVec Ideal S128x64 .f32) (dv : Fin 100000 → EReal)
    (srcw dstw dst : IVec SM 32) (bc : FVec Ideal S64 .f32) (i : Fin 100000) (j : Fin 64) : EReal :=
  max (aggR X Wc dv srcw dstw dst i j + bc (ix1 j)) 0

/-- The graph sums as a product with the membership matrix: row `n` counts for graph `g` when its graph number is
    the word of `g`. -/
def poolK (hid : Fin 100000 → Fin 64 → EReal) (B : IVec SN 32) (g : Fin 256) (j : Fin 64) : EReal :=
  ∑ n : Fin 100000, (if B (ix1 n) = BitVec.ofNat 32 g.val then (1 : EReal) else 0) * hid n j

/-- The graph sums as a segment sum: row `n` is added to graph `g` when its graph number, read signed, is `g`. -/
def poolR (hid : Fin 100000 → Fin 64 → EReal) (B : IVec SN 32) (g : Fin 256) (j : Fin 64) : EReal :=
  0 + ∑ n : Fin 100000, if (B (ix1 n)).toInt = (g.val : Int) then hid n j else 0

/-- The number of nodes of graph `g`. -/
def cntAt (B : IVec SN 32) (g : Fin 256) : EReal :=
  0 + ∑ n : Fin 100000, if (B (ix1 n)).toInt = (g.val : Int) then one else 0

/-- The graph means through the last linear map. -/
def outOf (pool : Fin 256 → Fin 64 → EReal) (cnt : Fin 256 → EReal) (Wl : FVec Ideal S64x10 .f32)
    (bl : FVec Ideal S10 .f32) (g : Fin 256) (o : Fin 10) : EReal :=
  (∑ j : Fin 64, Ideal.div (pool g j) (max (cnt g) one) * Wl (ix2 j o)) + bl (ix1 o)

/-- The first formula whole, from the arrays. -/
def outK (X : FVec Ideal SNx128 .f32) (E : IVec S2xE 32) (B : IVec SN 32) (Wc : FVec Ideal S128x64 .f32)
    (bc : FVec Ideal S64 .f32) (Wl : FVec Ideal S64x10 .f32) (bl : FVec Ideal S10 .f32) (g : Fin 256) (o : Fin 10) : EReal :=
  outOf (poolK (hidK X Wc (dinvAt (dstOf E)) (wrapOf (srcOf E)) (wrapOf (dstOf E)) bc) B) (cntAt B) Wl bl g o

/-- The second formula whole, from the arrays. -/
def outR (X : FVec Ideal SNx128 .f32) (E : IVec S2xE 32) (B : IVec SN 32) (Wc : FVec Ideal S128x64 .f32)
    (bc : FVec Ideal S64 .f32) (Wl : FVec Ideal S64x10 .f32) (bl : FVec Ideal S10 .f32) (g : Fin 256) (o : Fin 10) : EReal :=
  outOf (poolR (hidR X Wc (dinvAt (dstOf E)) (wrapOf (srcOf E)) (wrapOf (dstOf E)) (dstOf E) bc) B) (cntAt B) Wl bl g o

end Cert.GCN

end
-- ==== Proof.KArrays.lean ====
import proofs.«425309_j62843961475712_2_alg».proof.Proof.Gen.KernelIdeal.Frame
import proofs.«425309_j62843961475712_2_alg».proof.Proof.Spec

/-!
# Names for the arrays of the kernel program's run

Each array the three kernel regions find or leave, and each argument array, under a name whose type is the plain
function type from the array's index set, so that arithmetic on their entries is arithmetic on extended reals.
-/

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The launch arrays. -/
abbrev aX (c : Dev nD) : S100000x128.Idx → EReal := m ((c : Thread nD τ).loc main_arg0)
abbrev aE (c : Dev nD) : S2x1600000.Idx → BitVec 32 := m ((c : Thread nD τ).loc main_arg1)
abbrev aB (c : Dev nD) : S100000.Idx → BitVec 32 := m ((c : Thread nD τ).loc main_arg2)
abbrev aWc (c : Dev nD) : S128x64.Idx → EReal := m ((c : Thread nD τ).loc main_arg3)
abbrev abc (c : Dev nD) : S64.Idx → EReal := m ((c : Thread nD τ).loc main_arg4)
abbrev aWl (c : Dev nD) : S64x10.Idx → EReal := m ((c : Thread nD τ).loc main_arg5)
abbrev abl (c : Dev nD) : S10.Idx → EReal := m ((c : Thread nD τ).loc main_arg6)

/-- What the first region finds: features, first weights, the scaling column. -/
abbrev X0 (c : Dev nD) : S100000x128.Idx → EReal := V3 m ρ c main_arg0
abbrev Wc0 (c : Dev nD) : S128x64.Idx → EReal := V3 m ρ c main_arg3
abbrev D0 (c : Dev nD) : S100000x1.Idx → EReal := V3 m ρ c main_v17
/-- What the first region leaves: the scaled transformed features. -/
abbrev H18 (c : Dev nD) : S100000x64.Idx → EReal := W4 m ρ c (Proc.devRef .tc main_v18)

/-- What the second region finds: message sums, the scaling column, the graph numbers, the bias row. -/
abbrev A1 (c : Dev nD) : S100000x64.Idx → EReal := V5 m ρ c main_v34
abbrev D1 (c : Dev nD) : S100000x1.Idx → EReal := V5 m ρ c main_v42
abbrev B1 (c : Dev nD) : S100000x1.Idx → BitVec 32 := V5 m ρ c main_v41
abbrev bc1 (c : Dev nD) : S1x64.Idx → EReal := V5 m ρ c main_v40
/-- What the second region leaves: the graph sums. -/
abbrev P43 (c : Dev nD) : S256x64.Idx → EReal := W6 m ρ c (Proc.devRef .tc main_v43)

/-- What the third region finds: graph sums, node counts, last weights, last bias row. -/
abbrev P2 (c : Dev nD) : S256x64.Idx → EReal := V7 m ρ c main_v43
abbrev C2 (c : Dev nD) : S256x1.Idx → EReal := V7 m ρ c main_v39
abbrev Wl2 (c : Dev nD) : S64x10.Idx → EReal := V7 m ρ c main_arg5
abbrev bl2 (c : Dev nD) : S1x10.Idx → EReal := V7 m ρ c main_v44
/-- What the third region leaves: the result. -/
abbrev O45 (c : Dev nD) : S256x10.Idx → EReal := W8 m ρ c (Proc.devRef .tc main_v45)

end Cert.KernelIdeal.Val

end
-- ==== Proof.KRegion0.lean ====
import proofs.«425309_j62843961475712_2_alg».proof.Proof.Gen.KernelIdeal.Frame
import proofs.«425309_j62843961475712_2_alg».proof.Proof.Spec
import proofs.«425309_j62843961475712_2_alg».proof.Proof.KArrays
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

/-!
# The first dense kernel's result array

Rows are handled in ten blocks of 10000; row `i` of the result is row `i` of `X · Wc` times entry `i` of the scaling column.
-/

set_option maxRecDepth 16384

open scoped BigOperators

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.GCN

variable (m : (ℓ : Loc nD τ sig) → Buf (Elt Ideal) ℓ) (ρ : Dev nD → PrngReg)

namespace Region0

/-! ## One grid point's block, entry by entry -/

/-- The block product at an entry: the sum over the contracted coordinate. -/
theorem blockProduct_apply (A : FVec Ideal S10000x128 .bf16) (B : FVec Ideal S128x64 .bf16) (p : Fin 10000) (q : Fin 64) :
    matmul dot_S10000x128_S128x64_S10000x64_1_0_0_1_n_n none A B (constant (F := Ideal) S10000x64 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S10000x128_S128x64_S10000x64_1_0_0_1_n_n 128 rfl rfl).symm]
  refine Finset.sum_congr rfl fun k _ => ?_
  have c2 := contrEquiv1_symm_val dot_S10000x128_S128x64_S10000x64_1_0_0_1_n_n 128 rfl rfl k
  have l2 : dot_S10000x128_S128x64_S10000x64_1_0_0_1_n_n.lhsIdx (ix2 p q)
      ((contrEquiv1 dot_S10000x128_S128x64_S10000x64_1_0_0_1_n_n 128 rfl rfl).symm k) = ix2 p k := by
    funext ax; apply Fin.ext
    match ax with
    | ⟨0, _⟩ => simp [DotDims.lhsIdx, dot_S10000x128_S128x64_S10000x64_1_0_0_1_n_n]; rfl
    | ⟨1, _⟩ => simp [DotDims.lhsIdx, dot_S10000x128_S128x64_S10000x64_1_0_0_1_n_n]; exact c2
  have r2 : dot_S10000x128_S128x64_S10000x64_1_0_0_1_n_n.rhsIdx (ix2 p q)
      ((contrEquiv1 dot_S10000x128_S128x64_S10000x64_1_0_0_1_n_n 128 rfl rfl).symm k) = ix2 k q := by
    funext ax; apply Fin.ext
    match ax with
    | ⟨0, _⟩ => simp [DotDims.rhsIdx, dot_S10000x128_S128x64_S10000x64_1_0_0_1_n_n]; exact c2
    | ⟨1, _⟩ => simp [DotDims.rhsIdx, dot_S10000x128_S128x64_S10000x64_1_0_0_1_n_n]; rfl
  rw [l2, r2]

/-- Every rank-2 offset `(0, 0)` is the zero offset. -/
theorem zeroOffsets : (![0, 0] : Fin 2 → Nat) = fun _ => 0 := funext fun a => by fin_cases a <;> rfl

/-- The scaling column laid along the 64 columns, at an entry: the column's entry of that row. -/
theorem columnAlong_apply (x : FVec Ideal S10000x1 .f32) (p : Fin 10000) (q : Fin 64) :
    broadcastTo S10000x64 (shapeCast S10000x1 x shapeCasts_S10000x1_S10000x1) broadcasts_S10000x1_S10000x64 (ix2 p q)
      = x (ix2 p 0) := by
  rw [shapeCast_self]
  refine broadcastTo_apply x broadcasts_S10000x1_S10000x64 (ix2 p q) (ix2 p (0 : Fin 1)) fun a => ?_
  match a with
  | ⟨0, _⟩ => rfl
  | ⟨1, _⟩ => rfl

/-- What one grid point computes, at an entry of its block: the row of the block product times the scaling
    column's entry of that row (changes of float format are the identity on extended reals). -/
theorem payload_apply (x0 : FVec Ideal S10000x128 .f32) (x1 : FVec Ideal S128x64 .f32) (x2 : FVec Ideal S10000x1 .f32)
    (p : Fin 10000) (q : Fin 64) :
    (k0_pay1 (F := Ideal) x0 x1 x2 (ix2 p q) : EReal) = ((∑ k : Fin 128, x0 (ix2 p k) * x1 (ix2 k q)) * x2 (ix2 p 0) : EReal) := by
  unfold k0_pay1
  rw [truncf_apply, mulf_apply, columnAlong_apply, blockProduct_apply]
  rfl

/-! ## From blocks of rows to the whole array -/

/-- The array the region leaves: at `(r, j)`, row `r` of `X · W` at column `j`, times entry `r` of the column `D`. -/
def scaledRows (X : S100000x128.Idx → EReal) (W : S128x64.Idx → EReal) (D : S100000x1.Idx → EReal) :
    S100000x64.Idx → EReal := fun i =>
  (∑ k : Fin 128, X (ix2 (⟨(i 0).val, idx2_lt0 i⟩ : Fin 100000) k) * W (ix2 k (⟨(i 1).val, idx2_lt1 i⟩ : Fin 64)))
    * D (ix2 (⟨(i 0).val, idx2_lt0 i⟩ : Fin 100000) (0 : Fin 1))

/-- One grid point's block against the whole arrays: when the point's three input blocks are rows
    `10000 b … 10000 b + 9999` of the features and of the scaling column, and the whole weight matrix, the entry it
    computes at `y` is the whole-array function at row `10000 b + y₀`, column `y₁`. -/
theorem point_apply (X : S100000x128.Idx → EReal) (W : S128x64.Idx → EReal) (D : S100000x1.Idx → EReal)
    (x0 : FVec Ideal S10000x128 .f32) (x1 : FVec Ideal S128x64 .f32) (x2 : FVec Ideal S10000x1 .f32) (b : Nat)
    (h0 : ∀ (y : S10000x128.Idx) (i : S100000x128.Idx), (i 0).val = b * 10000 + (y 0).val → (i 1).val = (y 1).val → x0 y = X i)
    (h1 : ∀ y : S128x64.Idx, x1 y = W y)
    (h2 : ∀ (y : S10000x1.Idx) (i : S100000x1.Idx), (i 0).val = b * 10000 + (y 0).val → (i 1).val = (y 1).val → x2 y = D i)
    (y : S10000x64.Idx) (i : S100000x64.Idx) (hi0 : (i 0).val = b * 10000 + (y 0).val) (hi1 : (i 1).val = (y 1).val) :
    (k0_pay1 (F := Ideal) x0 x1 x2 y : EReal) = scaledRows X W D i := by
  obtain ⟨p, q, rfl⟩ : ∃ (p : Fin 10000) (q : Fin 64), y = ix2 p q := ⟨y 0, y 1, eq_ix2 y⟩
  rw [payload_apply]
  unfold scaledRows
  have e1 : (⟨(i 1).val, idx2_lt1 i⟩ : Fin 64) = q := Fin.ext hi1
  rw [e1]
  congr 1
  · refine Finset.sum_congr rfl fun k _ => ?_
    rw [h0 (ix2 p k) (ix2 (⟨(i 0).val, idx2_lt0 i⟩ : Fin 100000) k) hi0 rfl, h1]
  · exact h2 (ix2 p 0) (ix2 (⟨(i 0).val, idx2_lt0 i⟩ : Fin 100000) (0 : Fin 1)) hi0 rfl

/-- Where each window's block sits at grid point `t`: the row windows at block `t` of their arrays, the weight window
    always at its one block. -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section Blocks
variable (V : (c : Dev nD) → (b : Ref sig .tc) → Buf (Elt Ideal) ((c : Thread nD τ).loc b))

/-- The features' block at point `t` is rows `10000 t … 10000 t + 9999` of the features the region finds. -/
theorem featureBlock_apply (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : S100000x128.Idx → EReal) i := by
  obtain ⟨e0, e1, -⟩ := blockIndex_facts t
  unfold iblk0
  rw [View.read_apply]
  refine congrArg (V c main_arg0 : S100000x128.Idx → EReal) (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weights' block at every point is the whole weight matrix the region finds. -/
theorem weightBlock_apply (c : Dev nD) (t : Fin cfg0.N) (y : S128x64.Idx) :
    (iblk0 V c 1 t : Vec Ideal S128x64 .f32) y = (V c main_arg3 : S128x64.Idx → EReal) y := by
  obtain ⟨-, -, e0, e1, -⟩ := blockIndex_facts t
  unfold iblk0
  rw [View.read_apply]
  refine congrArg (V c main_arg3 : S128x64.Idx → EReal) (funext fun a => Fin.ext ?_)
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- The scaling column's block at point `t` is rows `10000 t … 10000 t + 9999` of the column the region finds. -/
theorem scaleBlock_apply (c : Dev nD) (t : Fin cfg0.N) (y : S10000x1.Idx) (i : S100000x1.Idx)
    (h0 : (i 0).val = t.val * 10000 + (y 0).val) (h1 : (i 1).val = (y 1).val) :
    (iblk0 V c 2 t : Vec Ideal S10000x1 .f32) y = (V c main_v17 : S100000x1.Idx → EReal) i := by
  obtain ⟨-, -, -, -, e0, e1, -⟩ := blockIndex_facts t
  unfold iblk0
  rw [View.read_apply]
  refine congrArg (V c main_v17 : S100000x1.Idx → EReal) (funext fun a => Fin.ext ?_)
  match a with
  | ⟨0, _⟩ => show win0_2.index t (0 : Fin 2) * 10000 + 1 * (y 0).val = (i 0).val; rw [e0, h0]; omega
  | ⟨1, _⟩ => show win0_2.index t (1 : Fin 2) * 1 + 1 * (y 1).val = (i 1).val; rw [e1, h1]; omega

/-- What point `t` writes back is block `t` (rows `10000 t … 10000 t + 9999`) of the whole-array function of the arrays
    the region finds. -/
theorem writtenBack_eq (c : Dev nD) (t : Fin cfg0.N) :
    (dat0 V c).flushed 3 t
      = ((cfg0.win 3).blk t).view.read (Elt Ideal) (scaledRows (V c main_arg0) (V c main_arg3) (V c main_v17)) := by
  show (cfg0.win 3).cut (grid0.coords t) ((dat0 V c).after 3 t) = _
  rw [after0_3]
  unfold out0_3
  rw [View.canon_unit_zero zeroOffsets]
  simp only [View.ld_unit_zero (S := S10000x128) zeroOffsets, View.ld_unit_zero (S := S128x64) zeroOffsets,
    View.ld_unit_zero (S := S10000x1) zeroOffsets]
  obtain ⟨-, -, -, -, -, -, e0, e1⟩ := blockIndex_facts t
  funext y
  refine point_apply (V c main_arg0) (V c main_arg3) (V c main_v17) (iblk0 V c 0 t) (iblk0 V c 1 t) (iblk0 V c 2 t) t.val
    (featureBlock_apply V c t) (weightBlock_apply V c t) (scaleBlock_apply V c t) y (((cfg0.win 3).blk t).view.emb y) ?_ ?_
  · show win0_3.index t (0 : Fin 2) * 10000 + 1 * (y 0).val = t.val * 10000 + (y 0).val; rw [e0]; omega
  · show win0_3.index t (1 : Fin 2) * 64 + 1 * (y 1).val = (y 1).val; rw [e1]; omega

/-- Row `r` of the result array lies in the block of point `r / 10000`, which is written back. -/
theorem rows_covered (i : S100000x64.Idx) :
    ∃ t : Fin cfg0.N, (cfg0.win 3).flush t = true ∧ i ∈ ((cfg0.win 3).blk t).view.set := by
  have h0 : (i 0).val < 100000 := idx2_lt0 i
  have h1 : (i 1).val < 64 := idx2_lt1 i
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, -, -, e0, e1⟩ := blockIndex_facts t
  refine ⟨t, flush0_3 t, ?_⟩
  show i ∈ ((View.whole main_v18).slice (win0_3.rect t)).set
  rw [View.set_slice_whole, Rect.mem_set_unit]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 64 ≤ (i 1).val ∧ (i 1).val < win0_3.index t (1 : Fin 2) * 64 + 64
    rw [e1]; omega

/-- So after the region's write-backs the result array is the whole-array function of the arrays the region finds. -/
theorem resultArray_eq (c : Dev nD) :
    (dat0 V c).arrAt 3 cfg0.N = scaledRows (V c main_arg0) (V c main_arg3) (V c main_v17) :=
  (dat0 V c).arrAt_eq_of_cover 3 (scaledRows (V c main_arg0) (V c main_arg3) (V c main_v17))
    (fun t _ => writtenBack_eq V c t) rows_covered

end Blocks

end Region0

/-! ## The region's result array -/

/-- After the first kernel region the result array holds, at `(i, j)`, the product row `∑ k, X i k · Wc k j` of the arrays
    the region found, times entry `i` of the scaling column it found. -/
theorem region0_val (c : Dev nD) (i : Fin 100000) (j : Fin 64) :
    H18 m ρ c (ix2 i j) = (∑ k : Fin 128, X0 m ρ c (ix2 i k) * Wc0 m ρ c (ix2 k j)) * D0 m ρ c (ix2 i 0) := by
  have h : H18 m ρ c = Region0.scaledRows (X0 m ρ c) (Wc0 m ρ c) (D0 m ρ c) :=
    (W4_arr m ρ c 3).trans (Region0.resultArray_eq (V3 m ρ) c)
  exact (congrFun h (ix2 i j)).trans rfl

end Cert.KernelIdeal.Val

end
-- ==== Proof.KRegion1.lean ====
import proofs.«425309_j62843961475712_2_alg».proof.Proof.Gen.KernelIdeal.Frame
import proofs.«425309_j62843961475712_2_alg».proof.Proof.Spec
import proofs.«425309_j62843961475712_2_alg».proof.Proof.KArrays
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

/-!
# The pooling kernel's result array

Twenty blocks of 5000 rows are accumulated into one [256, 64] block; entry `(g, j)` ends at the sum over all rows `n` whose graph number is the word of `g` of the clipped, biased, rescaled row entry.
-/

set_option maxRecDepth 16384

open scoped BigOperators

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.GCN

namespace Region1

section Pieces
variable {F : FTy → Type} [FloatOps F]

/-- The zero offsets of a block that is read or written whole. -/
theorem hz2 : (![0, 0] : Fin 2 → Nat) = fun _ => 0 := funext fun a => by fin_cases a <;> rfl

/-- At every point but the first the region leaves, in the result block holding `xo`, the update of `xo` by the
    point's four input blocks: its one covering store's value, whose loads read the whole buffers. -/
theorem out1_B (c : Dev nD) (i : grid1.Coords) (a1 : Memref sig .tc .vmem S5000x64 .f32) (h1 : a1.IsWhole)
    (a2 : Memref sig .tc .vmem S5000x1 .f32) (h2 : a2.IsWhole) (a3 : Memref sig .tc .vmem S5000x1 .i32) (h3 : a3.IsWhole)
    (a4 : Memref sig .tc .vmem S1x64 .f32) (h4 : a4.IsWhole) (a5 : Memref sig .tc .vmem S256x64 .f32) (h5 : a5.IsWhole)
    (hc : ¬cond1_0 i) (x0 : Vec F S5000x64 .f32) (x1 : Vec F S5000x1 .f32) (x2 : Vec F S5000x1 .i32) (x3 : Vec F S1x64 .f32)
    (xo : Vec F S256x64 .f32) :
    out1_B_4 c i a1 h1 a2 h2 a3 h3 a4 h4 a5 h5 hc x0 x1 x2 x3 xo = k1_pay2 x0 x1 x3 x2 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero hz2]
  simp only [View.readAt_eq_ld, h1.read_unread, h2.read_unread, h3.read_unread, h4.read_unread, h5.read_unread,
    View.ld_unit_zero (S := S5000x64) hz2, View.ld_unit_zero (S := S5000x1) hz2, View.ld_unit_zero (S := S1x64) hz2,
    View.ld_unit_zero (S := S256x64) hz2]

/-- At the first point the region stores the zero block, reads it back, and leaves its update by the point's four
    input blocks. -/
theorem out1_A (c : Dev nD) (i : grid1.Coords) (a1 : Memref sig .tc .vmem S5000x64 .f32) (h1 : a1.IsWhole)
    (a2 : Memref sig .tc .vmem S5000x1 .f32) (h2 : a2.IsWhole) (a3 : Memref sig .tc .vmem S5000x1 .i32) (h3 : a3.IsWhole)
    (a4 : Memref sig .tc .vmem S1x64 .f32) (h4 : a4.IsWhole) (a5 : Memref sig .tc .vmem S256x64 .f32) (h5 : a5.IsWhole)
    (hc : cond1_0 i) (x0 : Vec F S5000x64 .f32) (x1 : Vec F S5000x1 .f32) (x2 : Vec F S5000x1 .i32) (x3 : Vec F S1x64 .f32) :
    out1_A_4 c i a1 h1 a2 h2 a3 h3 a4 h4 a5 h5 hc x0 x1 x2 x3 = k1_pay2 x0 x1 x3 x2 k1_pay1 := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S256x64) hz2, View.readCov_unit_zero (S := S256x64) _ hz2]
  simp only [View.readAt_eq_ld, h1.read_unread, h2.read_unread, h3.read_unread, h4.read_unread,
    View.ld_unit_zero (S := S5000x64) hz2, View.ld_unit_zero (S := S5000x1) hz2, View.ld_unit_zero (S := S1x64) hz2,
    View.ld_unit_zero (S := S256x64) hz2]

end Pieces

section Payload

/-! ## The update's value at an entry, over the extended reals -/

/-- The contraction reads the membership factor's row axis at the contraction position … -/
theorem lhs_pool_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
/-- … its graph axis at the entry's row … -/
theorem lhs_pool_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
/-- … the clipped rows' row axis at the contraction position … -/
theorem rhs_pool_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
/-- … and their feature axis at the entry's column. -/
theorem rhs_pool_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- A one-bit word widened and read signed is one when the bit is set and zero when not. -/
theorem bit_toInt (b : BitVec 1) : (((b.setWidth 32).toInt : ℝ) : EReal) = if b = 1#1 then 1 else 0 := by
  rcases BitVec.eq_zero_or_eq_one b with h | h <;> subst h
  · rw [if_neg (by decide)]; norm_num
  · rw [if_pos rfl]; norm_num

/-- The membership factor at `(r, g)`: one when row `r`'s graph number is the word of `g`. -/
theorem member_apply (v16 : Vec Ideal S5000x1 .i32) (h1 : S5000x1.ShapeCasts S5000x1) (h2 : S5000x1.Broadcasts S5000x256)
    (h3 : S5000x256.Iotas .tc 32 [1]) (h4 : 1 < 32) (h5 : FTy.bits .bf16 < FTy.bits .f32) (r : Fin 5000) (g : Fin 256) :
    (truncf .bf16 (sitofp (F := Ideal) .f32 (extui 32 (cmpi .eq (broadcastTo S5000x256 (shapeCast S5000x1 v16 h1) h2)
      (iota .tc S5000x256 32 [1] h3)) h4)) h5 : FVec Ideal S5000x256 .bf16) (ix2 r g)
      = if v16 (ix2 r 0) = BitVec.ofNat 32 g.val then (1 : EReal) else 0 := by
  show ((((IntOp.cmpi .eq (broadcastTo S5000x256 (shapeCast S5000x1 v16 h1) h2 (ix2 r g))
      (iota .tc S5000x256 32 [1] h3 (ix2 r g))).setWidth 32).toInt : ℝ) : EReal) = _
  rw [bit_toInt, broadcastTo_apply (shapeCast S5000x1 v16 h1) h2 (ix2 r g) (ix2 r 0)
      (fun a => by match a with | ⟨0, _⟩ => rfl | ⟨1, _⟩ => rfl), shapeCast_self, iota_single_apply]
  exact if_congr IntOp.cmpi_eq rfl rfl

/-- The clipped, biased, rescaled row entry at `(r, j)`. -/
theorem clipped_apply (v3 : Vec Ideal S5000x64 .f32) (v5 : Vec Ideal S5000x1 .f32) (v9 : Vec Ideal S1x64 .f32)
    (h1 : S5000x64.ShapeCasts S5000x64) (h2 : S5000x1.ShapeCasts S5000x1) (h3 : S5000x1.Broadcasts S5000x64)
    (h4 : S1x64.ShapeCasts S1x64) (h5 : S1x64.Broadcasts S5000x64) (h6 : FTy.bits .bf16 < FTy.bits .f32)
    (r : Fin 5000) (j : Fin 64) :
    (truncf .bf16 (maximumf (addf (mulf (shapeCast S5000x64 v3 h1) (broadcastTo S5000x64 (shapeCast S5000x1 v5 h2) h3))
        (broadcastTo S5000x64 (shapeCast S1x64 v9 h4) h5)) (broadcast S5000x64 (Scalar.ofBits (F := Ideal) .f32 0x00000000#32))) h6
      : FVec Ideal S5000x64 .bf16) (ix2 r j) = max (v3 (ix2 r j) * v5 (ix2 r 0) + v9 (ix2 0 j)) 0 := by
  show max (shapeCast S5000x64 v3 h1 (ix2 r j) * broadcastTo S5000x64 (shapeCast S5000x1 v5 h2) h3 (ix2 r j)
      + broadcastTo S5000x64 (shapeCast S1x64 v9 h4) h5 (ix2 r j)) (Ideal.ofBits .f32 0x00000000#32) = _
  rw [shapeCast_self, broadcastTo_apply (shapeCast S5000x1 v5 h2) h3 (ix2 r j) (ix2 r 0)
      (fun a => by match a with | ⟨0, _⟩ => rfl | ⟨1, _⟩ => rfl), shapeCast_self,
    broadcastTo_apply (shapeCast S1x64 v9 h4) h5 (ix2 r j) (ix2 0 j)
      (fun a => by match a with | ⟨0, _⟩ => rfl | ⟨1, _⟩ => rfl), shapeCast_self, Ideal.ofBits_zero_f32]

/-- THE UPDATE AT AN ENTRY: the block's entry `(g, j)` plus, over the point's 5000 rows, the membership factor times the
    clipped row entry. -/
theorem pay2_apply (v3 : Vec Ideal S5000x64 .f32) (v5 : Vec Ideal S5000x1 .f32) (v9 : Vec Ideal S1x64 .f32)
    (v16 : Vec Ideal S5000x1 .i32) (v25 : Vec Ideal S256x64 .f32) (g : Fin 256) (j : Fin 64) :
    k1_pay2 (F := Ideal) v3 v5 v9 v16 v25 (ix2 g j)
      = v25 (ix2 g j) + ∑ r : Fin 5000, (if v16 (ix2 r 0) = BitVec.ofNat 32 g.val then (1 : EReal) else 0)
          * max (v3 (ix2 r j) * v5 (ix2 r 0) + v9 (ix2 0 j)) 0 := by
  unfold k1_pay2
  refine (addf_apply _ _ _).trans ?_
  refine congrArg₂ (· + ·) (congrFun (shapeCast_self v25 _) (ix2 g j)) ?_
  refine (Ideal.matmul_constant_zero_apply dot_S5000x256_S5000x64_S256x64_0_0_1_1_n_n none _ _ (ix2 g j)).trans ?_
  rw [← Equiv.sum_comp (contrEquiv1 dot_S5000x256_S5000x64_S256x64_0_0_1_1_n_n 5000 rfl rfl).symm]
  refine Finset.sum_congr rfl fun r _ => ?_
  have hk := contrEquiv1_symm_val dot_S5000x256_S5000x64_S256x64_0_0_1_1_n_n 5000 rfl rfl r
  have el : dot_S5000x256_S5000x64_S256x64_0_0_1_1_n_n.lhsIdx (ix2 g j) ((contrEquiv1 dot_S5000x256_S5000x64_S256x64_0_0_1_1_n_n 5000 rfl rfl).symm r) = ix2 r g := funext fun a => Fin.ext (by
    match a with
    | ⟨0, _⟩ => exact (lhs_pool_0 _ _).trans hk
    | ⟨1, _⟩ => exact lhs_pool_1 _ _)
  have er : dot_S5000x256_S5000x64_S256x64_0_0_1_1_n_n.rhsIdx (ix2 g j) ((contrEquiv1 dot_S5000x256_S5000x64_S256x64_0_0_1_1_n_n 5000 rfl rfl).symm r) = ix2 r j := funext fun a => Fin.ext (by
    match a with
    | ⟨0, _⟩ => exact (rhs_pool_0 _ _).trans hk
    | ⟨1, _⟩ => exact rhs_pool_1 _ _)
  rw [el, er]
  exact congrArg₂ (· * ·) (member_apply v16 _ _ _ _ _ r g) (clipped_apply v3 v5 v9 _ _ _ _ _ _ r j)

/-- The reset block is zero everywhere. -/
theorem pay1_apply (i : S256x64.Idx) : k1_pay1 (F := Ideal) i = 0 := Ideal.ofBits_zero_f32

end Payload

section Blocks

/-! ## The blocks a point finds, read off the arrays -/

variable (V : (c : Dev nD) → (b : Ref sig .tc) → Buf (Elt Ideal) ((c : Thread nD τ).loc b))

/-- The four arrays the region finds: message sums, scaling column, graph numbers, bias row. -/
abbrev arrA (c : Dev nD) : S100000x64.Idx → EReal := V c main_v34
abbrev arrD (c : Dev nD) : S100000x1.Idx → EReal := V c main_v42
abbrev arrB (c : Dev nD) : S100000x1.Idx → BitVec 32 := V c main_v41
abbrev arrb (c : Dev nD) : S1x64.Idx → EReal := V c main_v40

/-- A point's blocks of them. -/
abbrev blkA (c : Dev nD) (t : Fin cfg1.N) : Vec Ideal S5000x64 .f32 := iblk1 V c 0 t
abbrev blkD (c : Dev nD) (t : Fin cfg1.N) : Vec Ideal S5000x1 .f32 := iblk1 V c 1 t
abbrev blkB (c : Dev nD) (t : Fin cfg1.N) : Vec Ideal S5000x1 .i32 := iblk1 V c 2 t
abbrev blkb (c : Dev nD) (t : Fin cfg1.N) : Vec Ideal S1x64 .f32 := iblk1 V c 3 t

/-- Point `t`'s row blocks are the `t`-th; the bias row's block never moves. -/
theorem idx1_facts : ∀ t : Fin cfg1.N,
    win1_0.index t 0 = t.val ∧ win1_0.index t 1 = 0 ∧ win1_1.index t 0 = t.val ∧ win1_1.index t 1 = 0
      ∧ win1_2.index t 0 = t.val ∧ win1_2.index t 1 = 0 ∧ win1_3.index t 0 = 0 ∧ win1_3.index t 1 = 0 :=
  (by decide +kernel : ∀ t : Fin grid1.N, _)

/-- Row `r` of point `t`'s block of message sums is row `5000 t + r` of the array. -/
theorem blkA_apply (c : Dev nD) (t : Fin cfg1.N) (r : Fin 5000) (j : Fin 64) (n : Fin 100000)
    (hn : n.val = 5000 * t.val + r.val) : blkA V c t (ix2 r j) = arrA V c (ix2 n j) := by
  unfold blkA iblk1
  rw [View.read_apply]
  show V c main_v34 _ = V c main_v34 _
  congr 1
  funext a
  apply Fin.ext
  match a with
  | ⟨0, _⟩ => show win1_0.index t 0 * 5000 + 1 * r.val = n.val; rw [(idx1_facts t).1]; omega
  | ⟨1, _⟩ => show win1_0.index t 1 * 64 + 1 * j.val = j.val; rw [(idx1_facts t).2.1]; omega

/-- The same for the scaling column … -/
theorem blkD_apply (c : Dev nD) (t : Fin cfg1.N) (r : Fin 5000) (n : Fin 100000)
    (hn : n.val = 5000 * t.val + r.val) : blkD V c t (ix2 r 0) = arrD V c (ix2 n 0) := by
  unfold blkD iblk1
  rw [View.read_apply]
  show V c main_v42 _ = V c main_v42 _
  congr 1
  funext a
  apply Fin.ext
  match a with
  | ⟨0, _⟩ => show win1_1.index t 0 * 5000 + 1 * r.val = n.val; rw [(idx1_facts t).2.2.1]; omega
  | ⟨1, _⟩ => show win1_1.index t 1 * 1 + 1 * 0 = 0; rw [(idx1_facts t).2.2.2.1]

/-- … and for the graph numbers. -/
theorem blkB_apply (c : Dev nD) (t : Fin cfg1.N) (r : Fin 5000) (n : Fin 100000)
    (hn : n.val = 5000 * t.val + r.val) : blkB V c t (ix2 r 0) = arrB V c (ix2 n 0) := by
  unfold blkB iblk1
  rw [View.read_apply]
  show V c main_v41 _ = V c main_v41 _
  congr 1
  funext a
  apply Fin.ext
  match a with
  | ⟨0, _⟩ => show win1_2.index t 0 * 5000 + 1 * r.val = n.val; rw [(idx1_facts t).2.2.2.2.1]; omega
  | ⟨1, _⟩ => show win1_2.index t 1 * 1 + 1 * 0 = 0; rw [(idx1_facts t).2.2.2.2.2.1]

/-- The bias row's block is the bias row. -/
theorem blkb_apply (c : Dev nD) (t : Fin cfg1.N) (j : Fin 64) : blkb V c t (ix2 0 j) = arrb V c (ix2 0 j) := by
  unfold blkb iblk1
  rw [View.read_apply]
  show V c main_v40 _ = V c main_v40 _
  congr 1
  funext a
  apply Fin.ext
  match a with
  | ⟨0, _⟩ => show win1_3.index t 0 * 1 + 1 * 0 = 0; rw [(idx1_facts t).2.2.2.2.2.2.1]
  | ⟨1, _⟩ => show win1_3.index t 1 * 64 + 1 * j.val = j.val; rw [(idx1_facts t).2.2.2.2.2.2.2]; omega

end Blocks

section Running

/-! ## The running sum, the one write-back, and the result array -/

variable (V : (c : Dev nD) → (b : Ref sig .tc) → Buf (Elt Ideal) ((c : Thread nD τ).loc b))

/-- Row `k`'s share of entry `(g, j)`: the membership factor times the clipped row entry; nothing past the last row. -/
def rowTerm (c : Dev nD) (g : Fin 256) (j : Fin 64) (k : ℕ) : EReal :=
  if h : k < 100000 then
    (if arrB V c (ix2 ⟨k, h⟩ 0) = BitVec.ofNat 32 g.val then (1 : EReal) else 0)
      * max (arrA V c (ix2 ⟨k, h⟩ j) * arrD V c (ix2 ⟨k, h⟩ 0) + arrb V c (ix2 0 j)) 0
  else 0

/-- What point `t` adds to entry `(g, j)`: the shares of rows `5000 t … 5000 t + 4999`. -/
theorem point_sum (c : Dev nD) (g : Fin 256) (j : Fin 64) (t : Fin cfg1.N) :
    ∑ r : Fin 5000, (if blkB V c t (ix2 r 0) = BitVec.ofNat 32 g.val then (1 : EReal) else 0)
        * max (blkA V c t (ix2 r j) * blkD V c t (ix2 r 0) + blkb V c t (ix2 0 j)) 0
      = ∑ r : Fin 5000, rowTerm V c g j (5000 * t.val + r.val) := by
  have hN : t.val < 20 := lt_of_lt_of_eq t.isLt (show cfg1.N = 20 from N_1)
  refine Finset.sum_congr rfl fun r _ => ?_
  have hk : 5000 * t.val + r.val < 100000 := by have := r.isLt; omega
  unfold rowTerm
  rw [dif_pos hk, blkA_apply V c t r j ⟨_, hk⟩ rfl, blkD_apply V c t r ⟨_, hk⟩ rfl, blkB_apply V c t r ⟨_, hk⟩ rfl,
    blkb_apply V c t j]

/-- A sum over the first `5000 (n + 1)` rows is the sum over the first `5000 n` plus the next 5000. -/
theorem range_step (f : ℕ → EReal) (n : ℕ) :
    ∑ k ∈ Finset.range (5000 * (n + 1)), f k
      = ∑ k ∈ Finset.range (5000 * n), f k + ∑ r : Fin 5000, f (5000 * n + r.val) := by
  rw [Nat.mul_succ, Finset.sum_range_add]
  exact congrArg _ (Fin.sum_univ_eq_sum_range (fun x => f (5000 * n + x)) 5000).symm

/-- The first 5000 rows alone: the sum before them is empty. -/
theorem range_first (f : ℕ → EReal) :
    ∑ k ∈ Finset.range (5000 * (0 + 1)), f k = 0 + ∑ r : Fin 5000, f (5000 * 0 + r.val) := by
  rw [range_step, Nat.mul_zero, Finset.range_zero, Finset.sum_empty]

/-- The result block after point `n`. -/
abbrev accAt (c : Dev nD) (n : ℕ) (h : n < cfg1.N) : S256x64.Idx → EReal := outsAt1 V c n h

/-- THE RUNNING SUM: after point `n` entry `(g, j)` of the result block holds the shares of the first `5000 (n + 1)`
    rows — the reset at the first point makes the sum start at zero, every later point adds its 5000 rows; addition of
    extended reals is associative, so the order the rows arrive in leaves no trace. -/
theorem accAt_eq (c : Dev nD) (g : Fin 256) (j : Fin 64) : ∀ (n : ℕ) (h : n < cfg1.N),
    accAt V c n h (ix2 g j) = ∑ k ∈ Finset.range (5000 * (n + 1)), rowTerm V c g j k
  | 0, h => by
    refine (congrFun (outsAt1_A V c ⟨0, h⟩ rfl) (ix2 g j)).trans ?_
    refine (congrFun (out1_A (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩)
      ((hcond1_0 ⟨0, h⟩).mpr rfl) (blkA V c ⟨0, h⟩) (blkD V c ⟨0, h⟩) (blkB V c ⟨0, h⟩) (blkb V c ⟨0, h⟩)) (ix2 g j)).trans ?_
    refine (pay2_apply (blkA V c ⟨0, h⟩) (blkD V c ⟨0, h⟩) (blkb V c ⟨0, h⟩) (blkB V c ⟨0, h⟩) (k1_pay1 (F := Ideal)) g j).trans ?_
    rw [pay1_apply, point_sum V c g j ⟨0, h⟩]
    exact (range_first (rowTerm V c g j)).symm
  | n + 1, h => by
    have hN : cfg1.N = 20 := N_1
    have hB : ¬(⟨n + 1, h⟩ : Fin cfg1.N).val % 20 = 0 := by dsimp only; omega
    refine (congrFun (outsAt1_B V c ⟨n + 1, h⟩ hB) (ix2 g j)).trans ?_
    refine (congrFun (out1_B (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩)
      (fun hh => hB ((hcond1_0 ⟨n + 1, h⟩).mp hh)) (blkA V c ⟨n + 1, h⟩) (blkD V c ⟨n + 1, h⟩) (blkB V c ⟨n + 1, h⟩) (blkb V c ⟨n + 1, h⟩)
      (accAt V c n (Nat.lt_of_succ_lt h))) (ix2 g j)).trans ?_
    refine (pay2_apply (blkA V c ⟨n + 1, h⟩) (blkD V c ⟨n + 1, h⟩) (blkb V c ⟨n + 1, h⟩) (blkB V c ⟨n + 1, h⟩) (accAt V c n (Nat.lt_of_succ_lt h)) g j).trans ?_
    rw [accAt_eq c g j n (Nat.lt_of_succ_lt h), point_sum V c g j ⟨n + 1, h⟩]
    exact (range_step (rowTerm V c g j) (n + 1)).symm

/-- The last point, the only one whose block is written back. -/
abbrev tLast : Fin cfg1.N := ⟨19, by rw [show cfg1.N = 20 from N_1]; decide⟩

/-- What the result array ends holding: the result block after the last point (the block is the whole array). -/
abbrev pooled (c : Dev nD) : Buf (Elt Ideal) ((c : Thread nD τ).loc main_v43) := outsAt1 V c 19 tLast.isLt

/-- The one write-back writes it: block (0, 0) of the [256, 64] array, read through zero offsets, is the array. -/
theorem flushed_eq (c : Dev nD) (t : Fin cfg1.N) (hf : (cfg1.win 4).flush t = true) :
    (dat1 V c).flushed 4 t = ((cfg1.win 4).blk t).view.read (Elt Ideal) (pooled V c) := by
  have hN : cfg1.N = 20 := N_1
  have h19 : t.val = 19 := by have := (flush1_4 t).mp hf; have := t.isLt; omega
  obtain rfl : t = tLast := Fin.ext h19
  show (cfg1.win 4).cut (grid1.coords tLast) ((dat1 V c).after 4 tLast) = _
  rw [after1_4]
  have hz' : (fun a => win1_4.index tLast a * main_v43.ty.shape.size a) = fun _ => 0 :=
    funext fun a => by fin_cases a <;> decide +kernel
  exact (Memref.read_access_unit_zero (Elt Ideal) main_v43 hz' (fun a => by rw [congrFun hz' a]; simp) (pooled V c)).symm

/-- So the result array ends holding the result block after the last point: that point's block covers it. -/
theorem final1 (c : Dev nD) : (dat1 V c).arrAt 4 cfg1.N = pooled V c :=
  (dat1 V c).arrAt_eq_of_cover 4 (pooled V c) (flushed_eq V c) fun i =>
    ⟨tLast, (flush1_4 tLast).mpr rfl, by
      show i ∈ ((View.whole main_v43).slice (win1_4.rect tLast)).set
      rw [View.set_slice_whole, Rect.mem_set_unit]
      intro a
      have h0 : (i 0 : Nat) < 256 := (i 0).isLt
      have h1 : (i 1 : Nat) < 64 := (i 1).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 256 from by decide +kernel]; omega
      | ⟨1, _⟩ => show win1_4.index tLast 1 * win1_4.size 1 ≤ (i 1 : Nat) ∧ (i 1 : Nat) < win1_4.index tLast 1 * win1_4.size 1 + win1_4.xsize (grid1.coords tLast) 1
                  rw [show win1_4.index tLast 1 * win1_4.size 1 = 0 from by decide +kernel, show win1_4.xsize (grid1.coords tLast) 1 = 64 from by decide +kernel]; omega⟩

end Running

end Region1

open Region1

variable (m : (ℓ : Loc nD τ sig) → Buf (Elt Ideal) ℓ) (ρ : Dev nD → PrngReg)

/-- After the second kernel region the result array holds, at `(g, j)`, the sum over all rows `n` of the membership
    factor (one when row `n`'s graph number is the word of `g`, else zero) times `max (agg n j · scale n + bias j) 0`,
    all read off the arrays the region found. -/
theorem region1_val (c : Dev nD) (g : Fin 256) (j : Fin 64) :
    P43 m ρ c (ix2 g j)
      = ∑ n : Fin 100000, (if B1 m ρ c (ix2 n 0) = BitVec.ofNat 32 g.val then (1 : EReal) else 0)
            * max (A1 m ρ c (ix2 n j) * D1 m ρ c (ix2 n 0) + bc1 m ρ c (ix2 0 j)) 0 := by
  have e : P43 m ρ c = pooled (V5 m ρ) c := (W6_arr m ρ c 4).trans (final1 (V5 m ρ) c)
  refine (congrFun e (ix2 g j)).trans ?_
  refine (accAt_eq (V5 m ρ) c g j 19 tLast.isLt).trans ?_
  show ∑ k ∈ Finset.range 100000, rowTerm (V5 m ρ) c g j k = _
  rw [← Fin.sum_univ_eq_sum_range]
  refine Finset.sum_congr rfl fun n _ => ?_
  unfold rowTerm
  rw [dif_pos n.isLt]

end Cert.KernelIdeal.Val

end
-- ==== Proof.KRegion2.lean ====
import proofs.«425309_j62843961475712_2_alg».proof.Proof.Gen.KernelIdeal.Frame
import proofs.«425309_j62843961475712_2_alg».proof.Proof.Spec
import proofs.«425309_j62843961475712_2_alg».proof.Proof.KArrays
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

/-!
# The last dense kernel's result array

One block: entry `(g, o)` is the row of graph means through the last linear map, plus the bias.
-/

set_option maxRecDepth 16384

open scoped BigOperators

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.GCN

variable (m : (ℓ : Loc nD τ sig) → Buf (Elt Ideal) ℓ) (ρ : Dev nD → PrngReg)

/-! ## The body's arithmetic at an entry -/

/-- A column `[a, 1]` broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The product's left operand index on the row axis is the result's row … -/
theorem lhs_last_0 (i : S256x10.Idx) (q : dot_S256x64_S64x10_S256x10_1_0_0_1_n_n.contr.Idx) :
    (dot_S256x64_S64x10_S256x10_1_0_0_1_n_n.lhsIdx i q 0).val = (i 0).val := by
  unfold DotDims.lhsIdx
  rw [dif_neg (show ¬(0 : Fin S256x64.rank) ∈ dot_S256x64_S64x10_S256x10_1_0_0_1_n_n.lhsBatch by decide), dif_pos (show (0 : Fin S256x64.rank) ∈ dot_S256x64_S64x10_S256x10_1_0_0_1_n_n.lhsNonContracting by decide)]
  rfl
/-- … and on the column axis the summation index; -/
theorem lhs_last_1 (i : S256x10.Idx) (q : dot_S256x64_S64x10_S256x10_1_0_0_1_n_n.contr.Idx) :
    (dot_S256x64_S64x10_S256x10_1_0_0_1_n_n.lhsIdx i q 1).val = (q ⟨0, by decide⟩).val :=
  dot_S256x64_S64x10_S256x10_1_0_0_1_n_n.lhsIdx_val_of_single rfl i q
/-- the right operand's row is the summation index … -/
theorem rhs_last_0 (i : S256x10.Idx) (q : dot_S256x64_S64x10_S256x10_1_0_0_1_n_n.contr.Idx) :
    (dot_S256x64_S64x10_S256x10_1_0_0_1_n_n.rhsIdx i q 0).val = (q ⟨0, by decide⟩).val :=
  dot_S256x64_S64x10_S256x10_1_0_0_1_n_n.rhsIdx_val_of_single rfl i q
/-- … and its column the result's column. -/
theorem rhs_last_1 (i : S256x10.Idx) (q : dot_S256x64_S64x10_S256x10_1_0_0_1_n_n.contr.Idx) :
    (dot_S256x64_S64x10_S256x10_1_0_0_1_n_n.rhsIdx i q 1).val = (i 1).val := by
  unfold DotDims.rhsIdx
  rw [dif_neg (show ¬(1 : Fin S64x10.rank) ∈ dot_S256x64_S64x10_S256x10_1_0_0_1_n_n.rhsBatch by decide), dif_pos (show (1 : Fin S64x10.rank) ∈ dot_S256x64_S64x10_S256x10_1_0_0_1_n_n.rhsNonContracting by decide)]
  rfl

/-- The `[256, 64] × [64, 10]` product into a zero accumulator, at `(g, o)`: the sum over the 64 shared coordinates. -/
theorem last_matmul_apply (A : FVec Ideal S256x64 .bf16) (B : FVec Ideal S64x10 .bf16) (g : Fin 256) (o : Fin 10) :
    matmul dot_S256x64_S64x10_S256x10_1_0_0_1_n_n none A B (constant S256x10 .f32 0x00000000#32) (ix2 g o)
      = ∑ j : Fin 64, A (ix2 g j) * B (ix2 j o) := by
  simp only [matmul]
  rw [Ideal.matmul_constant_zero_apply, ← Equiv.sum_comp (ValueIdx.contrEquiv1 dot_S256x64_S64x10_S256x10_1_0_0_1_n_n 64 rfl rfl).symm]
  refine Finset.sum_congr rfl fun k _ => ?_
  have hk := ValueIdx.contrEquiv1_symm_val dot_S256x64_S64x10_S256x10_1_0_0_1_n_n 64 rfl rfl k
  have el : dot_S256x64_S64x10_S256x10_1_0_0_1_n_n.lhsIdx (ix2 g o) ((ValueIdx.contrEquiv1 dot_S256x64_S64x10_S256x10_1_0_0_1_n_n 64 rfl rfl).symm k) = ix2 g k := funext fun a => Fin.ext (by
    match a with
    | ⟨0, _⟩ => exact lhs_last_0 _ _
    | ⟨1, _⟩ => exact (lhs_last_1 _ _).trans hk)
  have er : dot_S256x64_S64x10_S256x10_1_0_0_1_n_n.rhsIdx (ix2 g o) ((ValueIdx.contrEquiv1 dot_S256x64_S64x10_S256x10_1_0_0_1_n_n 64 rfl rfl).symm k) = ix2 k o := funext fun a => Fin.ext (by
    match a with
    | ⟨0, _⟩ => exact (rhs_last_0 _ _).trans hk
    | ⟨1, _⟩ => exact rhs_last_1 _ _)
  rw [el, er]

/-- The body's result at `(g, o)`: row `g` of the sums, each entry divided by `max (count g) 1`, through the last
    weights' column `o`, plus the bias. The format changes are the identity on extended reals. -/
theorem pay_apply (v0 : Vec Ideal S256x64 .f32) (v2 : Vec Ideal S256x1 .f32) (v9 : Vec Ideal S64x10 .f32) (v12 : Vec Ideal S1x10 .f32)
    (g : Fin 256) (o : Fin 10) :
    k2_pay1 (F := Ideal) v0 v2 v9 v12 (ix2 g o)
      = (∑ j : Fin 64, Ideal.div (v0 (ix2 g j)) (max (v2 (ix2 g (0 : Fin 1))) one) * v9 (ix2 j o)) + v12 (ix2 (0 : Fin 1) o) := by
  unfold k2_pay1
  rw [addf_apply, last_matmul_apply, broadcastTo_1b_ab_apply, shapeCast_self v12, shapeCast_self v0, shapeCast_self v2]
  refine congrArg (· + v12 (ix2 (0 : Fin 1) o)) (Finset.sum_congr rfl fun j _ => ?_)
  rw [truncf_apply, truncf_apply, divf_apply, broadcastTo_a1_ab_apply, maximumf_apply, broadcast_apply]
  rfl

/-! ## From the one block to the array

The region's grid has one point, and every window's block is its whole array: the block index is zero on both axes,
so an entry of a block sits in the array at its own coordinates. -/

/-- The zero offsets on both axes. -/
theorem hz : (![0, 0] : Fin 2 → Nat) = fun _ => 0 := funext fun a => by fin_cases a <;> rfl

/-- Every window's block index at the one point is zero on both axes. -/
theorem idx_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The block of graph sums at `(g, j)` is the array's entry `(g, j)`. -/
theorem sums_blk_apply (c : Dev nD) (t : Fin cfg2.N) (g : Fin 256) (j : Fin 64) :
    iblk2 (V7 m ρ) c 0 t (ix2 g j) = P2 m ρ c (ix2 g j) := by
  obtain ⟨e0, e1, -⟩ := idx_zero t
  show V7 m ρ c main_v43 (((cfg2.win 0).blk t).view.emb (ix2 g j)) = V7 m ρ c main_v43 (ix2 g j)
  refine congrArg _ (funext fun a => Fin.ext ?_)
  match a with
  | ⟨0, _⟩ => show win2_0.index t (0 : Fin 2) * 256 + 1 * g.val = g.val; omega
  | ⟨1, _⟩ => show win2_0.index t (1 : Fin 2) * 64 + 1 * j.val = j.val; omega

/-- The block of node counts at `(g, 0)` is the array's entry `(g, 0)`. -/
theorem counts_blk_apply (c : Dev nD) (t : Fin cfg2.N) (g : Fin 256) (z : Fin 1) :
    iblk2 (V7 m ρ) c 1 t (ix2 g z) = C2 m ρ c (ix2 g z) := by
  obtain ⟨-, -, e0, e1, -⟩ := idx_zero t
  show V7 m ρ c main_v39 (((cfg2.win 1).blk t).view.emb (ix2 g z)) = V7 m ρ c main_v39 (ix2 g z)
  refine congrArg _ (funext fun a => Fin.ext ?_)
  match a with
  | ⟨0, _⟩ => show win2_1.index t (0 : Fin 2) * 256 + 1 * g.val = g.val; omega
  | ⟨1, _⟩ => show win2_1.index t (1 : Fin 2) * 1 + 1 * z.val = z.val; omega

/-- The block of last weights at `(j, o)` is the array's entry `(j, o)`. -/
theorem weights_blk_apply (c : Dev nD) (t : Fin cfg2.N) (j : Fin 64) (o : Fin 10) :
    iblk2 (V7 m ρ) c 2 t (ix2 j o) = Wl2 m ρ c (ix2 j o) := by
  obtain ⟨-, -, -, -, e0, e1, -⟩ := idx_zero t
  show V7 m ρ c main_arg5 (((cfg2.win 2).blk t).view.emb (ix2 j o)) = V7 m ρ c main_arg5 (ix2 j o)
  refine congrArg _ (funext fun a => Fin.ext ?_)
  match a with
  | ⟨0, _⟩ => show win2_2.index t (0 : Fin 2) * 64 + 1 * j.val = j.val; omega
  | ⟨1, _⟩ => show win2_2.index t (1 : Fin 2) * 10 + 1 * o.val = o.val; omega

/-- The block of the bias row at `(0, o)` is the array's entry `(0, o)`. -/
theorem bias_blk_apply (c : Dev nD) (t : Fin cfg2.N) (z : Fin 1) (o : Fin 10) :
    iblk2 (V7 m ρ) c 3 t (ix2 z o) = bl2 m ρ c (ix2 z o) := by
  obtain ⟨-, -, -, -, -, -, e0, e1, -⟩ := idx_zero t
  show V7 m ρ c main_v44 (((cfg2.win 3).blk t).view.emb (ix2 z o)) = V7 m ρ c main_v44 (ix2 z o)
  refine congrArg _ (funext fun a => Fin.ext ?_)
  match a with
  | ⟨0, _⟩ => show win2_3.index t (0 : Fin 2) * 1 + 1 * z.val = z.val; omega
  | ⟨1, _⟩ => show win2_3.index t (1 : Fin 2) * 10 + 1 * o.val = o.val; omega

/-- The result array as one function of the four arrays the region finds: at `(g, o)`, row `g` of the graph sums, each
    entry divided by `max (count g) 1`, through column `o` of the last weights, plus the bias at `o`. -/
def lastLayer (P : S256x64.Idx → EReal) (C : S256x1.Idx → EReal) (W : S64x10.Idx → EReal) (b : S1x10.Idx → EReal) :
    S256x10.Idx → EReal :=
  fun i => (∑ j : Fin 64, Ideal.div (P (ix2 (i 0) j)) (max (C (ix2 (i 0) (0 : Fin 1))) one) * W (ix2 j (i 1))) + b (ix2 (0 : Fin 1) (i 1))

/-- What the one point writes back is its block of that function. -/
theorem flushed_eq (c : Dev nD) (t : Fin cfg2.N) :
    (dat2 (V7 m ρ) c).flushed 4 t
      = ((cfg2.win 4).blk t).view.read (Elt Ideal) (lastLayer (P2 m ρ c) (C2 m ρ c) (Wl2 m ρ c) (bl2 m ρ c)) := by
  show (cfg2.win 4).cut (grid2.coords t) ((dat2 (V7 m ρ) c).after 4 t) = _
  rw [after2_4]
  unfold out2_4
  rw [View.canon_unit_zero hz]
  simp only [View.ld_unit_zero (S := S256x64) hz, View.ld_unit_zero (S := S256x1) hz, View.ld_unit_zero (S := S64x10) hz,
    View.ld_unit_zero (S := S1x10) hz]
  obtain ⟨-, -, -, -, -, -, -, -, e0, e1⟩ := idx_zero t
  funext y
  obtain ⟨g, o, rfl⟩ : ∃ (g : Fin 256) (o : Fin 10), y = ix2 g o := ⟨y 0, y 1, eq_ix2 y⟩
  have hemb : ((cfg2.win 4).blk t).view.emb (ix2 g o) = ix2 g o := by
    funext a; apply Fin.ext
    match a with
    | ⟨0, _⟩ => show win2_4.index t (0 : Fin 2) * 256 + 1 * g.val = g.val; omega
    | ⟨1, _⟩ => show win2_4.index t (1 : Fin 2) * 10 + 1 * o.val = o.val; omega
  show k2_pay1 (F := Ideal) (iblk2 (V7 m ρ) c 0 t) (iblk2 (V7 m ρ) c 1 t) (iblk2 (V7 m ρ) c 2 t) (iblk2 (V7 m ρ) c 3 t) (ix2 g o)
    = lastLayer (P2 m ρ c) (C2 m ρ c) (Wl2 m ρ c) (bl2 m ρ c) (((cfg2.win 4).blk t).view.emb (ix2 g o))
  rw [hemb]
  refine (pay_apply (iblk2 (V7 m ρ) c 0 t) (iblk2 (V7 m ρ) c 1 t) (iblk2 (V7 m ρ) c 2 t) (iblk2 (V7 m ρ) c 3 t) g o).trans ?_
  show _ = (∑ j : Fin 64, Ideal.div (P2 m ρ c (ix2 g j)) (max (C2 m ρ c (ix2 g (0 : Fin 1))) one) * Wl2 m ρ c (ix2 j o))
    + bl2 m ρ c (ix2 (0 : Fin 1) o)
  rw [counts_blk_apply m ρ c t g 0, bias_blk_apply m ρ c t 0 o]
  refine congrArg (· + bl2 m ρ c (ix2 (0 : Fin 1) o)) (Finset.sum_congr rfl fun j _ => ?_)
  rw [sums_blk_apply m ρ c t g j, weights_blk_apply m ρ c t j o]

/-- The one point's block of the result array is the whole array. -/
theorem covered (i : S256x10.Idx) :
    ∃ t : Fin cfg2.N, (cfg2.win 4).flush t = true ∧ i ∈ ((cfg2.win 4).blk t).view.set := by
  refine ⟨t2_0, flush2_4 t2_0, ?_⟩
  obtain ⟨-, -, -, -, -, -, -, -, e0, e1⟩ := idx_zero t2_0
  show i ∈ ((View.whole main_v45).slice (win2_4.rect t2_0)).set
  rw [View.set_slice_whole, Rect.mem_set_unit]
  intro a
  have h0 : (i 0).val < 256 := (i 0).isLt
  have h1 : (i 1).val < 10 := (i 1).isLt
  match a with
  | ⟨0, _⟩ => show win2_4.index t2_0 (0 : Fin 2) * 256 ≤ (i 0).val ∧ (i 0).val < win2_4.index t2_0 (0 : Fin 2) * 256 + 256; omega
  | ⟨1, _⟩ => show win2_4.index t2_0 (1 : Fin 2) * 10 ≤ (i 1).val ∧ (i 1).val < win2_4.index t2_0 (1 : Fin 2) * 10 + 10; omega

/-- So the result array ends holding that function of the four arrays. -/
theorem final_last (c : Dev nD) :
    (dat2 (V7 m ρ) c).arrAt 4 cfg2.N = lastLayer (P2 m ρ c) (C2 m ρ c) (Wl2 m ρ c) (bl2 m ρ c) :=
  (dat2 (V7 m ρ) c).arrAt_eq_of_cover 4 _ (fun t _ => flushed_eq m ρ c t) covered

/-- After the third kernel region the result array holds, at `(g, o)`, `∑ j, (sum g j / max (count g) 1) · Wl j o + bias o`,
    read off the arrays the region found. -/
theorem region2_val (c : Dev nD) (g : Fin 256) (o : Fin 10) :
    O45 m ρ c (ix2 g o)
      = (∑ j : Fin 64, Ideal.div (P2 m ρ c (ix2 g j)) (max (C2 m ρ c (ix2 g 0)) one) * Wl2 m ρ c (ix2 j o))
          + bl2 m ρ c (ix2 0 o) := by
  have h : O45 m ρ c = lastLayer (P2 m ρ c) (C2 m ρ c) (Wl2 m ρ c) (bl2 m ρ c) :=
    (W8_arr m ρ c 4).trans (final_last m ρ c)
  rw [h]
  rfl

end Cert.KernelIdeal.Val

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.KHost.lean ====
import proofs.«425309_j62843961475712_2_alg».proof.Proof.Gen.KernelIdeal.Frame
import proofs.«425309_j62843961475712_2_alg».proof.Proof.Spec
import proofs.«425309_j62843961475712_2_alg».proof.Proof.KArrays
import proofs.«425309_j62843961475712_2_alg».proof.Proof.LibScatterRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

/-!
# The arrays each kernel region finds

Between the regions the program prepares arrays with plain array operations: the edge ends, the in-degrees and their inverse square roots before the first region; the gathered and re-scattered messages, the graph node counts and a few re-laid arguments before the second; one re-laid argument before the third. Each is read here at a coordinate.
-/

set_option maxRecDepth 16384

open scoped BigOperators

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.GCN

variable (m : (ℓ : Loc nD τ sig) → Buf (Elt Ideal) ℓ) (ρ : Dev nD → PrngReg)

/-- A buffer that no operation of a stretch writes holds after the stretch what it held before. -/
local macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Arrays no operation touches: the arguments as launched, up to each region's entry -/

private theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl

private theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl

private theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c : Thread nD τ).loc main_arg2) := rfl

private theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl

private theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by unwritten hostOps1
    _ = W3 m ρ c (Proc.devRef .tc main_arg6) := W4_of_ne m ρ c main_arg6 (by decide)
    _ = W2 m ρ c (Proc.devRef .tc main_arg6) := by unwritten hostOps0_2
    _ = W1 m ρ c (Proc.devRef .tc main_arg6) := by unwritten hostOps0_1
    _ = W0 m ρ c (Proc.devRef .tc main_arg6) := by unwritten hostOps0
    _ = m ((c : Thread nD τ).loc main_arg6) := rfl

private theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := by unwritten hostOps2
    _ = W5 m ρ c (Proc.devRef .tc main_arg5) := W6_of_ne m ρ c main_arg5 (by decide)
    _ = W4 m ρ c (Proc.devRef .tc main_arg5) := by unwritten hostOps1
    _ = W3 m ρ c (Proc.devRef .tc main_arg5) := W4_of_ne m ρ c main_arg5 (by decide)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

/-- The first region finds the feature array as launched. -/
theorem X0_eq (c : Dev nD) : X0 m ρ c = aX m c := W3_main_arg0 m ρ c

/-- The first region finds the first weight array as launched. -/
theorem Wc0_eq (c : Dev nD) : Wc0 m ρ c = aWc m c := W3_main_arg3 m ρ c

/-- The third region finds the second region's result untouched. -/
theorem P2_eq (c : Dev nD) : P2 m ρ c = P43 m ρ c := by
  show W7 m ρ c (Proc.devRef .tc main_v43) = W6 m ρ c (Proc.devRef .tc main_v43)
  unwritten hostOps2

/-- The third region finds the last weight array as launched. -/
theorem Wl2_eq (c : Dev nD) : Wl2 m ρ c = aWl m c := W7_main_arg5 m ρ c

/-! ## Re-laid arguments: a vector as a one-row or one-column matrix -/

/-- A vector cast to a one-column matrix reads, at `(i, 0)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

private theorem hostOps1_v41 (V : Valuation τ sig (Elt Ideal)) :
    (StableHlo.after hostOps1 V (Proc.devRef .tc main_v41) : S100000x1.Idx → BitVec 32)
      = shapeCast S100000x1 (V (Proc.devRef .tc main_arg2) : S100000.Idx → BitVec 32) shapeCasts_S100000_S100000x1 := by
  after_results; rfl

private theorem hostOps1_v40 (V : Valuation τ sig (Elt Ideal)) :
    (StableHlo.after hostOps1 V (Proc.devRef .tc main_v40) : S1x64.Idx → EReal)
      = shapeCast S1x64 (V (Proc.devRef .tc main_arg4) : S64.Idx → EReal) shapeCasts_S64_S1x64 := by
  after_results; rfl

private theorem hostOps2_v44 (V : Valuation τ sig (Elt Ideal)) :
    (StableHlo.after hostOps2 V (Proc.devRef .tc main_v44) : S1x10.Idx → EReal)
      = shapeCast S1x10 (V (Proc.devRef .tc main_arg6) : S10.Idx → EReal) shapeCasts_S10_S1x10 := by
  after_results; rfl

/-- The graph-number column the second region finds is the graph-number argument. -/
theorem B1_apply (c : Dev nD) (n : Fin 100000) : B1 m ρ c (ix2 n 0) = aB m c (ix1 n) := by
  show StableHlo.after hostOps1 (W4 m ρ c) (Proc.devRef .tc main_v41) (ix2 n 0) = _
  rw [hostOps1_v41, W4_main_arg2]
  exact shapeCast_a_a1_apply _ _ n 0

/-- The bias row the second region finds is the first bias argument. -/
theorem bc1_apply (c : Dev nD) (j : Fin 64) : bc1 m ρ c (ix2 0 j) = abc m c (ix1 j) := by
  show StableHlo.after hostOps1 (W4 m ρ c) (Proc.devRef .tc main_v40) (ix2 0 j) = _
  rw [hostOps1_v40, W4_main_arg4]
  exact shapeCast_a_1a_apply _ _ 0 j

/-- The bias row the third region finds is the last bias argument. -/
theorem bl2_apply (c : Dev nD) (o : Fin 10) : bl2 m ρ c (ix2 0 o) = abl m c (ix1 o) := by
  show StableHlo.after hostOps2 (W6 m ρ c) (Proc.devRef .tc main_v44) (ix2 0 o) = _
  rw [hostOps2_v44, W6_main_arg6]
  exact shapeCast_a_1a_apply _ _ 0 o

/-! ## Reading broadcasts and accumulating scatters at an index

Each holds for every extent of the arrays involved, and is stated so. -/

/-- The rank-1 index at a coordinate, in its two spellings. -/
private theorem ofFin_eq_ix1 {n : Nat} (k : Fin n) : Shape.Idx.ofFin k = ix1 k := by
  funext a
  have ha : a = 0 := Subsingleton.elim _ _
  subst ha
  exact Fin.ext rfl

/-- A scalar laid out over an array reads the scalar everywhere. -/
private theorem bcast_scalar_apply {α : Type} {t : Shape} (h : (⟨0, ![]⟩ : Shape).BroadcastsInDim t ![])
    (v : (⟨0, ![]⟩ : Shape).Idx → α) (j : t.Idx) : broadcastInDim t ![] h v j = v ix0 := by
  rw [StableHlo.Predicate.bcast_scalar h (by decide) v j]
  exact congrArg v (eq_ix0 _)

/-- A vector laid out as a column reads, at row `p`, the vector at `p`. -/
private theorem bcast_col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (StableHlo.Predicate.ixP p) = v (ix1 p) := by
  rw [StableHlo.Predicate.bcast_col1 h v p, ofFin_eq_ix1]

/-- The accumulating scatter of a vector along a column of positions, read at an entry: the exact sum. -/
private theorem scatterAdd_vec_apply {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e : Fin n, if (idx (StableHlo.Predicate.ixP e)).toInt = (i.val : Int) then upd (ix1 e) else 0 :=
  Cert.ScatterRows.hostScatterAdd_vec d huw hiw hsd hivd x idx upd i

/-- One constant scattered with accumulation onto another along a column of positions: entry `i` ends at the first
    word's value plus, for every position that reads `i`, the second word's value. -/
private theorem count_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (h0 : (⟨0, ![]⟩ : Shape).BroadcastsInDim ⟨1, ![N]⟩ ![])
    (hc : (⟨1, ![n]⟩ : Shape).BroadcastsInDim ⟨2, ![n, 1]⟩ ![0])
    (h1 : (⟨0, ![]⟩ : Shape).BroadcastsInDim ⟨1, ![n]⟩ ![])
    (z o : BitVec 32) (idx : IVec ⟨1, ![n]⟩ w) (i : Fin N) :
    Host.scatterAdd (F := Ideal) d
        (broadcastInDim ⟨1, ![N]⟩ ![] h0 (constant (F := Ideal) ⟨0, ![]⟩ .f32 z))
        (broadcastInDim ⟨2, ![n, 1]⟩ ![0] hc idx)
        (broadcastInDim ⟨1, ![n]⟩ ![] h1 (constant (F := Ideal) ⟨0, ![]⟩ .f32 o)) (ix1 i)
      = Ideal.ofBits .f32 z + ∑ e : Fin n, if (idx (ix1 e)).toInt = (i.val : Int) then Ideal.ofBits .f32 o else 0 := by
  rw [scatterAdd_vec_apply d huw hiw hsd hivd, bcast_scalar_apply, constant_apply]
  refine congrArg _ (Finset.sum_congr rfl fun e _ => ?_)
  rw [bcast_col_apply, bcast_scalar_apply, constant_apply]

/-! ## The graph node counts -/

private theorem hostOps1_v39 (V : Valuation τ sig (Elt Ideal)) :
    (StableHlo.after hostOps1 V (Proc.devRef .tc main_v39) : S256x1.Idx → EReal)
      = shapeCast S256x1
          (Host.scatterAdd (F := Ideal) scatter_S256_S100000x1_S100000_n_0_0_1
            (broadcastInDim S256 ![] bcast_S_S256 (constant (F := Ideal) S_ .f32 0x00000000#32))
            (broadcastInDim S100000x1 ![0] bcast_S100000_S100000x1_0 (V (Proc.devRef .tc main_arg2) : S100000.Idx → BitVec 32))
            (broadcastInDim S100000 ![] bcast_S_S100000 (constant (F := Ideal) S_ .f32 0x3F800000#32)))
          shapeCasts_S256_S256x1 := by
  after_results; rfl

/-- Ones scattered with accumulation along the column of graph numbers count, at `g`, the nodes of graph `g`. -/
private theorem count_scatter (B : S100000.Idx → BitVec 32) (g : Fin 256) :
    shapeCast S256x1
        (Host.scatterAdd (F := Ideal) scatter_S256_S100000x1_S100000_n_0_0_1
          (broadcastInDim S256 ![] bcast_S_S256 (constant (F := Ideal) S_ .f32 0x00000000#32))
          (broadcastInDim S100000x1 ![0] bcast_S100000_S100000x1_0 B)
          (broadcastInDim S100000 ![] bcast_S_S100000 (constant (F := Ideal) S_ .f32 0x3F800000#32)))
        shapeCasts_S256_S256x1 (ix2 g 0)
      = cntAt B g := by
  rw [shapeCast_a_a1_apply]
  unfold cntAt
  refine (count_vec _ rfl rfl rfl rfl _ _ _ _ _ B g).trans ?_
  rw [Ideal.ofBits_zero_f32]

/-- The count column the third region finds holds at row `g` the number of nodes of graph `g`. -/
theorem C2_apply (c : Dev nD) (g : Fin 256) : C2 m ρ c (ix2 g 0) = cntAt (aB m c) g := by
  have e : W7 m ρ c (Proc.devRef .tc main_v39) = W5 m ρ c (Proc.devRef .tc main_v39) :=
    calc W7 m ρ c (Proc.devRef .tc main_v39)
      _ = W6 m ρ c (Proc.devRef .tc main_v39) := by unwritten hostOps2
      _ = W5 m ρ c (Proc.devRef .tc main_v39) := W6_of_ne m ρ c main_v39 (by decide)
  show W7 m ρ c (Proc.devRef .tc main_v39) (ix2 g 0) = _
  rw [e]
  show StableHlo.after hostOps1 (W4 m ρ c) (Proc.devRef .tc main_v39) (ix2 g 0) = _
  rw [hostOps1_v39, W4_main_arg2]
  exact count_scatter _ g

/-! ## The in-degrees and their inverse square roots -/

/-- The edge targets as the program builds them: row 1 of the edge array, then the node numbers. -/
private theorem hostOps0_v6 (V : Valuation τ sig (Elt Ideal)) :
    (StableHlo.after hostOps0 V (Proc.devRef .tc main_v6) : S1700000.Idx → BitVec 32)
      = dstOf (V (Proc.devRef .tc main_arg1) : S2x1600000.Idx → BitVec 32) := by
  after_results
  unfold dstOf endsOf
  rfl

/-- The edge sources likewise: row 0 of the edge array, then the node numbers. -/
private theorem hostOps0_v3 (V : Valuation τ sig (Elt Ideal)) :
    (StableHlo.after hostOps0 V (Proc.devRef .tc main_v3) : S1700000.Idx → BitVec 32)
      = srcOf (V (Proc.devRef .tc main_arg1) : S2x1600000.Idx → BitVec 32) := by
  after_results
  unfold srcOf endsOf
  rfl

/-- The in-degree vector: ones scattered with accumulation along the column of edge targets. -/
private def degK (dst : S1700000.Idx → BitVec 32) : S100000.Idx → EReal :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 dst)
    (broadcastInDim S1700000 ![] bcast_S_S1700000 (constant (F := Ideal) S_ .f32 0x3F800000#32))

private theorem degK_apply (dst : S1700000.Idx → BitVec 32) (i : Fin 100000) : degK dst (ix1 i) = degAt dst i := by
  unfold degK degAt
  refine (count_vec _ rfl rfl rfl rfl _ _ _ _ _ dst i).trans ?_
  rw [Ideal.ofBits_zero_f32]

private theorem hostOps0_v12 (V : Valuation τ sig (Elt Ideal)) :
    (StableHlo.after hostOps0 V (Proc.devRef .tc main_v12) : S100000.Idx → BitVec 1)
      = cmpf (F := Ideal) .ogt (degK (dstOf (V (Proc.devRef .tc main_arg1) : S2x1600000.Idx → BitVec 32)))
          (broadcastInDim S100000 ![] bcast_S_S100000 (constant (F := Ideal) S_ .f32 0x00000000#32)) := by
  after_results; rfl

private theorem hostOps0_v15 (V : Valuation τ sig (Elt Ideal)) :
    (StableHlo.after hostOps0 V (Proc.devRef .tc main_v15) : S100000.Idx → EReal)
      = Host.rsqrt (F := Ideal) (maximumf (F := Ideal) (degK (dstOf (V (Proc.devRef .tc main_arg1) : S2x1600000.Idx → BitVec 32)))
          (broadcastInDim S100000 ![] bcast_S_S100000 (constant (F := Ideal) S_ .f32 0x3F800000#32))) := by
  after_results; rfl

private theorem hostOps0_cst_3 (V : Valuation τ sig (Elt Ideal)) :
    (StableHlo.after hostOps0 V (Proc.devRef .tc main_cst_3) : S_.Idx → EReal)
      = constant (F := Ideal) S_ .f32 0x00000000#32 := by
  after_results

private theorem hostOps0_1_v16 (V : Valuation τ sig (Elt Ideal)) :
    (StableHlo.after hostOps0_1 V (Proc.devRef .tc main_v16) : S100000.Idx → EReal)
      = select (V (Proc.devRef .tc main_v12) : S100000.Idx → BitVec 1) (V (Proc.devRef .tc main_v15) : S100000.Idx → EReal)
          (broadcastInDim S100000 ![] bcast_S_S100000 (V (Proc.devRef .tc main_cst_3) : S_.Idx → EReal)) := by
  after_results; rfl

/-- Where a degree is positive its clipped inverse square root, elsewhere zero: the three-way choice read at an index. -/
private theorem dinv_select {s : Shape} (deg : FVec Ideal s .f32) (h0 : (⟨0, ![]⟩ : Shape).BroadcastsInDim s ![]) (i : s.Idx) :
    select (cmpf (F := Ideal) .ogt deg (broadcastInDim s ![] h0 (constant (F := Ideal) ⟨0, ![]⟩ .f32 0x00000000#32)))
        (Host.rsqrt (F := Ideal) (maximumf (F := Ideal) deg
          (broadcastInDim s ![] h0 (constant (F := Ideal) ⟨0, ![]⟩ .f32 0x3F800000#32))))
        (broadcastInDim s ![] h0 (constant (F := Ideal) ⟨0, ![]⟩ .f32 0x00000000#32)) i
      = if 0 < deg i then Ideal.rsqrt (max (deg i) (Ideal.ofBits .f32 0x3F800000#32)) else 0 := by
  show Scalar.select (Ideal.cmp .ogt (deg i) (broadcastInDim s ![] h0 (constant (F := Ideal) ⟨0, ![]⟩ .f32 0x00000000#32) i))
      (Ideal.rsqrt (max (deg i) (broadcastInDim s ![] h0 (constant (F := Ideal) ⟨0, ![]⟩ .f32 0x3F800000#32) i)))
      (broadcastInDim s ![] h0 (constant (F := Ideal) ⟨0, ![]⟩ .f32 0x00000000#32) i) = _
  simp only [bcast_scalar_apply, constant_apply, Ideal.ofBits_zero_f32]
  have hc : Ideal.cmp .ogt (deg i) 0 = 1#1 ↔ 0 < deg i := by
    unfold Ideal.cmp
    show BitVec.ofBool (decide (0 < deg i)) = 1#1 ↔ _
    rw [StableHlo.Predicate.ofBool_eq_one_iff, decide_eq_true_iff]
  unfold Scalar.select
  exact if_congr hc rfl rfl

/-- The inverse square roots as the first two stretches leave them, at a node. -/
private theorem v16_apply (V : Valuation τ sig (Elt Ideal)) (i : Fin 100000) :
    (StableHlo.after hostOps0_1 (StableHlo.after hostOps0 V) (Proc.devRef .tc main_v16) : S100000.Idx → EReal) (ix1 i)
      = dinvAt (dstOf (V (Proc.devRef .tc main_arg1) : S2x1600000.Idx → BitVec 32)) i := by
  rw [hostOps0_1_v16, hostOps0_v12, hostOps0_v15, hostOps0_cst_3]
  refine (dinv_select (degK _) _ (ix1 i)).trans ?_
  rw [degK_apply]
  rfl

private theorem hostOps0_2_v17 (V : Valuation τ sig (Elt Ideal)) :
    (StableHlo.after hostOps0_2 V (Proc.devRef .tc main_v17) : S100000x1.Idx → EReal)
      = shapeCast S100000x1 (V (Proc.devRef .tc main_v16) : S100000.Idx → EReal) shapeCasts_S100000_S100000x1 := by
  after_results; rfl

private theorem hostOps1_v42 (V : Valuation τ sig (Elt Ideal)) :
    (StableHlo.after hostOps1 V (Proc.devRef .tc main_v42) : S100000x1.Idx → EReal)
      = shapeCast S100000x1 (V (Proc.devRef .tc main_v16) : S100000.Idx → EReal) shapeCasts_S100000_S100000x1 := by
  after_results; rfl

/-- The scaling column the first region finds holds at row `i` the inverse square root of node `i`'s in-degree. -/
theorem D0_apply (c : Dev nD) (i : Fin 100000) : D0 m ρ c (ix2 i 0) = dinvAt (dstOf (aE m c)) i := by
  show StableHlo.after hostOps0_2 (W2 m ρ c) (Proc.devRef .tc main_v17) (ix2 i 0) = _
  rw [hostOps0_2_v17, shapeCast_a_a1_apply]
  exact v16_apply (W0 m ρ c) i

/-- The scaling column the second region finds is the same inverse square roots. -/
theorem D1_apply (c : Dev nD) (n : Fin 100000) : D1 m ρ c (ix2 n 0) = dinvAt (dstOf (aE m c)) n := by
  have w : W4 m ρ c (Proc.devRef .tc main_v16) = W2 m ρ c (Proc.devRef .tc main_v16) :=
    calc W4 m ρ c (Proc.devRef .tc main_v16)
      _ = W3 m ρ c (Proc.devRef .tc main_v16) := W4_of_ne m ρ c main_v16 (by decide)
      _ = W2 m ρ c (Proc.devRef .tc main_v16) := by unwritten hostOps0_2
  show StableHlo.after hostOps1 (W4 m ρ c) (Proc.devRef .tc main_v42) (ix2 n 0) = _
  rw [hostOps1_v42, shapeCast_a_a1_apply, w]
  exact v16_apply (W0 m ρ c) n

/-! ## The message sums -/

/-- The accumulating scatter of rows along a column of row numbers, read at an element: the exact sum. -/
private theorem scatterAdd_rows_apply {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ .f32) (idx : IVec ⟨2, ![n, 1]⟩ w) (upd : FVec Ideal ⟨2, ![n, D]⟩ .f32)
    (i : Fin N) (q : Fin D) :
    Host.scatterAdd (F := Ideal) d x idx upd (ix2 i q)
      = x (ix2 i q) + ∑ e : Fin n, if (idx (StableHlo.Predicate.ixP e)).toInt = (i.val : Int) then upd (ix2 e q) else 0 :=
  Cert.ScatterRows.hostScatterAdd_rows d huw hiw hsd hivd x idx upd i q

/-- Rows gathered along one column of row numbers and scattered with accumulation onto a constant along another:
    element `(i, q)` ends at the constant plus, for every position whose second number reads `i`, element `q` of the
    row whose number is the position's first, read signed and clamped. -/
private theorem gather_scatter_rows {N D n w : Nat} (hN : 0 < N)
    (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (g : GatherDims ⟨2, ![N, D]⟩ ⟨2, ![n, 1]⟩ ⟨2, ![n, D]⟩)
    (hoff : g.offsetDims = [1]) (hcoll : g.collapsedSliceDims = [0]) (hob : g.operandBatchingDims = [])
    (hsim : g.startIndexMap = [0]) (hgivd : g.indexVectorDim = 1) (hss : g.sliceSizes = ![1, D])
    (h0 : (⟨0, ![]⟩ : Shape).BroadcastsInDim ⟨2, ![N, D]⟩ ![])
    (hc : (⟨1, ![n]⟩ : Shape).BroadcastsInDim ⟨2, ![n, 1]⟩ ![0])
    (hb : FTy.bf16.bits < FTy.f32.bits)
    (z : BitVec 32) (H : FVec Ideal ⟨2, ![N, D]⟩ .bf16) (srcw dstw : IVec ⟨1, ![n]⟩ w) (i : Fin N) (q : Fin D) :
    Host.scatterAdd (F := Ideal) d
        (broadcastInDim ⟨2, ![N, D]⟩ ![] h0 (constant (F := Ideal) ⟨0, ![]⟩ .f32 z))
        (broadcastInDim ⟨2, ![n, 1]⟩ ![0] hc dstw)
        (extf (F := Ideal) .f32 (Host.gather g H (broadcastInDim ⟨2, ![n, 1]⟩ ![0] hc srcw)) hb) (ix2 i q)
      = Ideal.ofBits .f32 z + ∑ e : Fin n, if (dstw (ix1 e)).toInt = (i.val : Int)
          then H (ix2 (⟨min (srcw (ix1 e)).toInt.toNat (N - 1), by omega⟩ : Fin N) q) else 0 := by
  rw [scatterAdd_rows_apply d huw hiw hsd hivd, bcast_scalar_apply, constant_apply]
  refine congrArg _ (Finset.sum_congr rfl fun e _ => ?_)
  rw [bcast_col_apply hc dstw e]
  refine congrArg (fun t => if (dstw (ix1 e)).toInt = (i.val : Int) then t else 0) ?_
  rw [extf_apply]
  refine (Cert.ScatterRows.gather_rows g hoff hcoll hob hsim hgivd hss H _ e q hN).trans ?_
  refine congrArg (fun r => H (ix2 r q)) (Fin.ext ?_)
  show min _ _ = min _ _
  rw [bcast_col_apply hc srcw e]

private theorem hostOps1_v34 (V : Valuation τ sig (Elt Ideal)) :
    (StableHlo.after hostOps1 V (Proc.devRef .tc main_v34) : S100000x64.Idx → EReal)
      = Host.scatterAdd (F := Ideal) scatter_S100000x64_S1700000x1_S1700000x64_1_0_0_1
          (broadcastInDim S100000x64 ![] bcast_S_S100000x64 (constant (F := Ideal) S_ .f32 0x00000000#32))
          (broadcastInDim S1700000x1 ![0] bcast_S1700000_S1700000x1_0
            (wrapOf (V (Proc.devRef .tc main_v6) : S1700000.Idx → BitVec 32)))
          (extf (F := Ideal) .f32
            (Host.gather gather_S100000x64_S1700000x1_S1700000x64_1_0_n_n_0_1_164
              (V (Proc.devRef .tc main_v18) : FVec Ideal S100000x64 .bf16)
              (broadcastInDim S1700000x1 ![0] bcast_S1700000_S1700000x1_0
                (wrapOf (V (Proc.devRef .tc main_v3) : S1700000.Idx → BitVec 32))))
            bitsLt_bf16_f32) := by
  after_results
  unfold wrapOf
  rfl

/-- The edge targets reach the second stretch as the first stretch left them. -/
private theorem W4_main_v6 (c : Dev nD) :
    (W4 m ρ c (Proc.devRef .tc main_v6) : S1700000.Idx → BitVec 32) = dstOf (aE m c) := by
  have h1 : W4 m ρ c (Proc.devRef .tc main_v6) = W3 m ρ c (Proc.devRef .tc main_v6) := W4_of_ne m ρ c main_v6 (by decide)
  have h2 : W3 m ρ c (Proc.devRef .tc main_v6) = W2 m ρ c (Proc.devRef .tc main_v6) := by unwritten hostOps0_2
  have h3 : W2 m ρ c (Proc.devRef .tc main_v6) = W1 m ρ c (Proc.devRef .tc main_v6) := by unwritten hostOps0_1
  rw [h1, h2, h3]
  exact hostOps0_v6 (W0 m ρ c)

/-- The edge sources likewise. -/
private theorem W4_main_v3 (c : Dev nD) :
    (W4 m ρ c (Proc.devRef .tc main_v3) : S1700000.Idx → BitVec 32) = srcOf (aE m c) := by
  have h1 : W4 m ρ c (Proc.devRef .tc main_v3) = W3 m ρ c (Proc.devRef .tc main_v3) := W4_of_ne m ρ c main_v3 (by decide)
  have h2 : W3 m ρ c (Proc.devRef .tc main_v3) = W2 m ρ c (Proc.devRef .tc main_v3) := by unwritten hostOps0_2
  have h3 : W2 m ρ c (Proc.devRef .tc main_v3) = W1 m ρ c (Proc.devRef .tc main_v3) := by unwritten hostOps0_1
  rw [h1, h2, h3]
  exact hostOps0_v3 (W0 m ρ c)

/-- The message sums the second region finds: at `(n, j)` the sum over the edges whose wrapped target, read signed, is
    `n` of entry `j` of the first region's result row at the edge's wrapped and clamped source. -/
theorem A1_apply (c : Dev nD) (n : Fin 100000) (j : Fin 64) :
    A1 m ρ c (ix2 n j)
      = 0 + ∑ e : Fin 1700000, if ((wrapOf (dstOf (aE m c))) (ix1 e)).toInt = (n.val : Int)
          then H18 m ρ c (ix2 (rowOf (wrapOf (srcOf (aE m c))) e) j) else 0 := by
  show StableHlo.after hostOps1 (W4 m ρ c) (Proc.devRef .tc main_v34) (ix2 n j) = _
  rw [hostOps1_v34, W4_main_v6, W4_main_v3]
  unfold rowOf
  refine (gather_scatter_rows (by decide) _ rfl rfl rfl rfl _ rfl rfl rfl rfl rfl rfl _ _ _ _
    (H18 m ρ c) (wrapOf (srcOf (aE m c))) (wrapOf (dstOf (aE m c))) n j).trans ?_
  rw [Ideal.ofBits_zero_f32]

end Cert.KernelIdeal.Val

end
-- ==== Proof.KVal.lean ====
import proofs.«425309_j62843961475712_2_alg».proof.Proof.Gen.KernelIdeal.Frame
import proofs.«425309_j62843961475712_2_alg».proof.Proof.Spec
import proofs.«425309_j62843961475712_2_alg».proof.Proof.KArrays
import proofs.«425309_j62843961475712_2_alg».proof.Proof.KRegion0
import proofs.«425309_j62843961475712_2_alg».proof.Proof.KRegion1
import proofs.«425309_j62843961475712_2_alg».proof.Proof.KRegion2
import proofs.«425309_j62843961475712_2_alg».proof.Proof.KHost
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

/-!
# The kernel program's result, entry by entry

The three regions' results chained through the array operations between them: the result array at `(g, o)` is the first formula of the launch arrays.
-/

set_option maxRecDepth 16384

open scoped BigOperators

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.GCN

variable (m : (ℓ : Loc nD τ sig) → Buf (Elt Ideal) ℓ) (ρ : Dev nD → PrngReg)

/-- The hidden layer the second region reads off the arrays it finds is the first formula's. -/
theorem hid_eq (c : Dev nD) (n : Fin 100000) (j : Fin 64) :
    max (A1 m ρ c (ix2 n j) * D1 m ρ c (ix2 n 0) + bc1 m ρ c (ix2 0 j)) 0
      = hidK (aX m c) (aWc m c) (dinvAt (dstOf (aE m c))) (wrapOf (srcOf (aE m c))) (wrapOf (dstOf (aE m c))) (abc m c) n j := by
  rw [A1_apply, D1_apply, bc1_apply]
  unfold hidK aggK hmat
  simp only [region0_val m ρ c, X0_eq m ρ c, Wc0_eq m ρ c, D0_apply m ρ c]

/-- The result array at `(g, o)` is the first formula of the launch arrays. -/
theorem kernel_val (c : Dev nD) (g : Fin 256) (o : Fin 10) :
    O45 m ρ c (ix2 g o) = outK (aX m c) (aE m c) (aB m c) (aWc m c) (abc m c) (aWl m c) (abl m c) g o := by
  rw [region2_val]
  unfold outK outOf poolK
  simp only [P2_eq m ρ c, C2_apply m ρ c, Wl2_eq m ρ c, bl2_apply m ρ c, region1_val m ρ c, B1_apply m ρ c, hid_eq m ρ c]

end Cert.KernelIdeal.Val

end
-- ==== Proof.RefValue.lean ====
import proofs.«425309_j62843961475712_2_alg».proof.Proof.RefRead
import proofs.«425309_j62843961475712_2_alg».proof.Proof.Spec
import proofs.«425309_j62843961475712_2_alg».proof.Proof.LibScatterRows
import Idealize.ShloMosaic.Lib.Pipeline.Value
import Idealize.ShloMosaic.Lib.ValueIdx
import Idealize.ShloMosaic.Lib.ValueLayout
import Idealize.ShloMosaic.PureOps.Ideal.Laws

/-!
# The reference's result, entry by entry

The plain program's result term, read at `(g, o)`, is the second formula: every message weighted by both ends'
factors, summed per node, biased, clipped, summed per graph, averaged and mapped.
-/

set_option maxRecDepth 16384

open scoped BigOperators

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.GCN

section Stages
open Cert.ReferenceIdeal.Read Idealize.ShloMosaic.StableHlo.Predicate Cert.ScatterRows

/-! ## The integer side: the edge ends and their wraps are the formula's own operations -/

/-- The source ends, whole. -/
theorem src_eq (x1 : IVec S2xE 32) : val_main_v4 (F := Ideal) x1 = srcOf x1 := rfl
/-- The target ends, whole. -/
theorem dst_eq (x1 : IVec S2xE 32) : val_main_v7 (F := Ideal) x1 = dstOf x1 := rfl
/-- The wrapped source ends that the factor gather reads. -/
theorem wrap22 (x1 : IVec S2xE 32) : val_main_v22 (F := Ideal) x1 = wrapOf (val_main_v4 (F := Ideal) x1) := rfl
/-- The wrapped target ends that the factor gather reads. -/
theorem wrap29 (x1 : IVec S2xE 32) : val_main_v29 (F := Ideal) x1 = wrapOf (val_main_v7 (F := Ideal) x1) := rfl
/-- The wrapped source ends that the row gather reads. -/
theorem wrap37 (x1 : IVec S2xE 32) : val_main_v37 (F := Ideal) x1 = wrapOf (val_main_v4 (F := Ideal) x1) := rfl

/-! ## Indices by coordinates -/

/-- The rank-1 index at a coordinate, in the two spellings. -/
theorem ofFin_eq_ix1 {n : Nat} (p : Fin n) : Shape.Idx.ofFin p = ix1 p :=
  funext fun a => Fin.ext (by match a with | ⟨0, _⟩ => rfl)

theorem col10 (e : Fin 1700000) : idx_main_v10 (ixP e) = ix1 e :=
  funext fun a => Fin.ext (by match a with | ⟨0, _⟩ => rfl)
theorem col44 (e : Fin 1700000) : idx_main_v44 (ixP e) = ix1 e :=
  funext fun a => Fin.ext (by match a with | ⟨0, _⟩ => rfl)
theorem col40 (e : Fin 1700000) (j : Fin 64) : idx_main_v40 (idx_main_v41 (ix2 e j)) = ix1 e :=
  funext fun a => Fin.ext (by match a with | ⟨0, _⟩ => rfl)
theorem col47 (i : Fin 100000) (j : Fin 64) : idx_main_v46 (idx_main_v47 (ix2 i j)) = ix1 j :=
  funext fun a => Fin.ext (by match a with | ⟨0, _⟩ => rfl)
theorem col51 (n : Fin 100000) : idx_main_v51 (ixP n) = ix1 n :=
  funext fun a => Fin.ext (by match a with | ⟨0, _⟩ => rfl)
theorem col55 (n : Fin 100000) : idx_main_v55 (ixP n) = ix1 n :=
  funext fun a => Fin.ext (by match a with | ⟨0, _⟩ => rfl)
theorem col60 (g : Fin 256) (j : Fin 64) : idx_main_v59 (idx_main_v60 (ix2 g j)) = ix1 g :=
  funext fun a => Fin.ext (by match a with | ⟨0, _⟩ => rfl)
theorem col64 (g : Fin 256) (o : Fin 10) : idx_main_v63 (idx_main_v64 (ix2 g o)) = ix1 o :=
  funext fun a => Fin.ext (by match a with | ⟨0, _⟩ => rfl)
theorem l0 (n : Fin 100000) (j : Fin 64) (k : Fin 128) : lidx_main_v0 (ix2 n j) k = ix2 n k :=
  funext fun a => Fin.ext (by match a with | ⟨0, _⟩ => rfl | ⟨1, _⟩ => rfl)
theorem r0 (n : Fin 100000) (j : Fin 64) (k : Fin 128) : ridx_main_v0 (ix2 n j) k = ix2 k j :=
  funext fun a => Fin.ext (by match a with | ⟨0, _⟩ => rfl | ⟨1, _⟩ => rfl)
theorem l62 (g : Fin 256) (o : Fin 10) (k : Fin 64) : lidx_main_v62 (ix2 g o) k = ix2 g k :=
  funext fun a => Fin.ext (by match a with | ⟨0, _⟩ => rfl | ⟨1, _⟩ => rfl)
theorem r62 (g : Fin 256) (o : Fin 10) (k : Fin 64) : ridx_main_v62 (ix2 g o) k = ix2 k o :=
  funext fun a => Fin.ext (by match a with | ⟨0, _⟩ => rfl | ⟨1, _⟩ => rfl)

/-! ## The position-dependent operations over variables -/

/-- A vector kept as a column reads, at row `e`, its entry `e`. -/
theorem col_read {α : Type} (v : SM.Idx → α) (e : Fin 1700000) :
    broadcastInDim S1700000x1 ![0] bcast_S1700000_S1700000x1_0 v (ixP e) = v (ix1 e) :=
  (bcast_col1 bcast_S1700000_S1700000x1_0 v e).trans (congrArg v (ofFin_eq_ix1 e))

/-- A vector read along a column of node numbers: entry `e` is the vector at the node of `e`. -/
theorem take_col {α : Type} (x : SN.Idx → α) (v : IVec SM 32) (e : Fin 1700000) :
    Host.gather gather_S100000_S1700000x1_S1700000_n_0_n_n_0_1_1 x
      (broadcastInDim S1700000x1 ![0] bcast_S1700000_S1700000x1_0 v) (ix1 e) = x (ix1 (rowOf v e)) := by
  have h := gather_take gather_S100000_S1700000x1_S1700000_n_0_n_n_0_1_1 rfl rfl rfl rfl x
    (broadcastInDim S1700000x1 ![0] bcast_S1700000_S1700000x1_0 v) e (by omega)
  rw [ofFin_eq_ix1, ofFin_eq_ix1] at h
  refine h.trans (congrArg x (congrArg (ix1 (n := 100000)) (Fin.ext ?_)))
  show min _ _ = min (v (ix1 e)).toInt.toNat (100000 - 1)
  rw [col_read]

/-- Rows read along a column of node numbers: row `e` is the row of the node of `e`. -/
theorem take_rows {α : Type} (x : S100000x64.Idx → α) (v : IVec SM 32) (e : Fin 1700000) (j : Fin 64) :
    Host.gather gather_S100000x64_S1700000x1_S1700000x64_1_0_n_n_0_1_164 x
      (broadcastInDim S1700000x1 ![0] bcast_S1700000_S1700000x1_0 v) (ix2 e j) = x (ix2 (rowOf v e) j) := by
  have h := gather_rows gather_S100000x64_S1700000x1_S1700000x64_1_0_n_n_0_1_164 rfl rfl rfl rfl rfl rfl x
    (broadcastInDim S1700000x1 ![0] bcast_S1700000_S1700000x1_0 v) e j (by omega)
  refine h.trans (congrArg x (congrArg (fun r : Fin 100000 => ix2 r j) (Fin.ext ?_)))
  show min _ _ = min (v (ix1 e)).toInt.toNat (100000 - 1)
  rw [col_read]

/-! ## The accumulating scatters at the exact instance -/

/-- The accumulating vector scatter read at an entry: the old value plus the updates sent there. -/
theorem scatter_vec_at {N n : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ .f32) (idx : IVec ⟨2, ![n, 1]⟩ 32) (upd : FVec Ideal ⟨1, ![n]⟩ .f32) (i : Fin N) :
    Host.scatterAdd d x idx upd (ix1 i)
      = x (ix1 i) + ∑ e : Fin n, if (idx (ixP e)).toInt = (i.val : Int) then upd (ix1 e) else 0 := by
  unfold Host.scatterAdd
  rw [Ideal.hostScatterAdd_def]
  exact hostScatterAdd_vec d huw hiw hsd hivd x idx upd i

/-- The accumulating row scatter read at an element: the old value plus the update rows sent to its row. -/
theorem scatter_rows_at {N D n : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ .f32) (idx : IVec ⟨2, ![n, 1]⟩ 32) (upd : FVec Ideal ⟨2, ![n, D]⟩ .f32)
    (i : Fin N) (q : Fin D) :
    Host.scatterAdd d x idx upd (ix2 i q)
      = x (ix2 i q) + ∑ e : Fin n, if (idx (ixP e)).toInt = (i.val : Int) then upd (ix2 e q) else 0 := by
  unfold Host.scatterAdd
  rw [Ideal.hostScatterAdd_def]
  exact hostScatterAdd_rows d huw hiw hsd hivd x idx upd i q

/-! ## The float stages, one per piece of the formula -/

/-- The in-degrees: one for every edge whose target is the node. -/
theorem deg_at (E : IVec S2xE 32) (i : Fin 100000) :
    val_main_v11 (F := Ideal) E (ix1 i) = degAt (dstOf E) i := by
  unfold val_main_v11
  rw [scatter_vec_at scatter_S100000_S1700000x1_S1700000_n_0_0_1 rfl rfl rfl rfl]
  unfold degAt
  refine congrArg₂ (· + ·) ?_ (Finset.sum_congr rfl fun e _ => ?_)
  · rw [val_main_v9_apply, val_main_cst_0_apply, Ideal.ofBits_def, Ideal.ofBits_zero_f32]
  · rw [val_main_v10_apply, col10, dst_eq, val_main_v8_apply, val_main_cst_apply, Ideal.ofBits_def]

/-- A set bit selects the first value, a clear one the second. -/
theorem select_decide {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- The normalising factor of a node. -/
theorem dinv_at (E : IVec S2xE 32) (i : Fin 100000) :
    val_main_v17 (F := Ideal) E (ix1 i) = dinvAt (dstOf E) i := by
  rw [val_main_v17_apply, val_main_v13_apply, val_main_v16_apply, val_main_v15_apply, deg_at,
    val_main_v12_apply, val_main_cst_1_apply, val_main_v14_apply, val_main_cst_2_apply,
    val_main_call0_v1_apply, val_main_call0_v0_apply, val_main_cst_3_apply]
  simp only [Ideal.ofBits_def, Ideal.ofBits_zero_f32, Ideal.cmpf_def, Ideal.maximumf_def, Ideal.hostUnary_rsqrt_def]
  unfold dinvAt Ideal.cmp
  exact select_decide _ _ _

/-- The factor of an edge's source end. -/
theorem wsrc_at (E : IVec S2xE 32) (e : Fin 1700000) :
    val_main_v24 (F := Ideal) E (ix1 e) = dinvAt (dstOf E) (rowOf (wrapOf (srcOf E)) e) := by
  unfold val_main_v24 val_main_v23
  rw [take_col, wrap22, src_eq, dinv_at]

/-- The factor of an edge's target end. -/
theorem wdst_at (E : IVec S2xE 32) (e : Fin 1700000) :
    val_main_v31 (F := Ideal) E (ix1 e) = dinvAt (dstOf E) (rowOf (wrapOf (dstOf E)) e) := by
  unfold val_main_v31 val_main_v30
  rw [take_col, wrap29, dst_eq, dinv_at]

/-- The weight of an edge: the product of its two ends' factors. -/
theorem weight_at (E : IVec S2xE 32) (e : Fin 1700000) :
    val_main_v32 (F := Ideal) E (ix1 e)
      = dinvAt (dstOf E) (rowOf (wrapOf (srcOf E)) e) * dinvAt (dstOf E) (rowOf (wrapOf (dstOf E)) e) := by
  rw [val_main_v32_apply, wsrc_at, wdst_at, Ideal.mulf_def]

/-- The transformed features of a node. -/
theorem hmat_at (X : FVec Ideal SNx128 .f32) (Wc : FVec Ideal Cert.GCN.S128x64 .f32) (n : Fin 100000) (j : Fin 64) :
    val_main_v0 (F := Ideal) X Wc (ix2 n j) = hmat X Wc n j := by
  rw [val_main_v0_apply]
  unfold hmat
  refine Finset.sum_congr rfl fun k _ => ?_
  rw [l0, r0]

/-- The message along an edge: the source's transformed features times the edge's weight. -/
theorem msg_at (X : FVec Ideal SNx128 .f32) (E : IVec S2xE 32) (Wc : FVec Ideal Cert.GCN.S128x64 .f32)
    (e : Fin 1700000) (j : Fin 64) :
    val_main_v42 (F := Ideal) X E Wc (ix2 e j)
      = hmat X Wc (rowOf (wrapOf (srcOf E)) e) j
        * (dinvAt (dstOf E) (rowOf (wrapOf (srcOf E)) e) * dinvAt (dstOf E) (rowOf (wrapOf (dstOf E)) e)) := by
  rw [val_main_v42_apply, val_main_v41_apply, val_main_v40_apply, col40, weight_at, Ideal.mulf_def]
  unfold val_main_v39 val_main_v38
  rw [take_rows, wrap37, src_eq, hmat_at]

/-- The messages summed at their targets. -/
theorem agg_at (X : FVec Ideal SNx128 .f32) (E : IVec S2xE 32) (Wc : FVec Ideal Cert.GCN.S128x64 .f32)
    (i : Fin 100000) (j : Fin 64) :
    val_main_v45 (F := Ideal) X E Wc (ix2 i j)
      = aggR X Wc (dinvAt (dstOf E)) (wrapOf (srcOf E)) (wrapOf (dstOf E)) (dstOf E) i j := by
  unfold val_main_v45
  rw [scatter_rows_at scatter_S100000x64_S1700000x1_S1700000x64_1_0_0_1 rfl rfl rfl rfl]
  unfold aggR
  refine congrArg₂ (· + ·) ?_ (Finset.sum_congr rfl fun e _ => ?_)
  · rw [val_main_v43_apply, val_main_cst_9_apply, Ideal.ofBits_def, Ideal.ofBits_zero_f32]
  · rw [val_main_v44_apply, col44, dst_eq, msg_at]

/-- The hidden layer: the summed messages plus the bias, clipped at zero. -/
theorem hid_at (X : FVec Ideal SNx128 .f32) (E : IVec S2xE 32) (Wc : FVec Ideal Cert.GCN.S128x64 .f32)
    (bc : FVec Ideal Cert.GCN.S64 .f32) (i : Fin 100000) (j : Fin 64) :
    val_main_v49 (F := Ideal) X E Wc bc (ix2 i j)
      = hidR X Wc (dinvAt (dstOf E)) (wrapOf (srcOf E)) (wrapOf (dstOf E)) (dstOf E) bc i j := by
  rw [val_main_v49_apply, val_main_v48_apply, agg_at, val_main_v47_apply, val_main_v46_apply, col47,
    val_main_call1_v0_apply, val_main_call1_cst_apply, Ideal.ofBits_def, Ideal.ofBits_zero_f32,
    Ideal.maximumf_def, Ideal.addf_def]
  rfl

/-- The hidden rows summed by graph. -/
theorem pool_at (X : FVec Ideal SNx128 .f32) (E : IVec S2xE 32) (B : IVec SN 32) (Wc : FVec Ideal Cert.GCN.S128x64 .f32)
    (bc : FVec Ideal Cert.GCN.S64 .f32) (g : Fin 256) (j : Fin 64) :
    val_main_v52 (F := Ideal) X E B Wc bc (ix2 g j)
      = poolR (hidR X Wc (dinvAt (dstOf E)) (wrapOf (srcOf E)) (wrapOf (dstOf E)) (dstOf E) bc) B g j := by
  unfold val_main_v52
  rw [scatter_rows_at scatter_S256x64_S100000x1_S100000x64_1_0_0_1 rfl rfl rfl rfl]
  unfold poolR
  refine congrArg₂ (· + ·) ?_ (Finset.sum_congr rfl fun n _ => ?_)
  · rw [val_main_v50_apply, val_main_cst_10_apply, Ideal.ofBits_def, Ideal.ofBits_zero_f32]
  · rw [val_main_v51_apply, col51, hid_at]

/-- The node count of a graph. -/
theorem cnt_at (B : IVec SN 32) (g : Fin 256) :
    val_main_v56 (F := Ideal) B (ix1 g) = cntAt B g := by
  unfold val_main_v56
  rw [scatter_vec_at scatter_S256_S100000x1_S100000_n_0_0_1 rfl rfl rfl rfl]
  unfold cntAt
  refine congrArg₂ (· + ·) ?_ (Finset.sum_congr rfl fun n _ => ?_)
  · rw [val_main_v54_apply, val_main_cst_12_apply, Ideal.ofBits_def, Ideal.ofBits_zero_f32]
  · rw [val_main_v55_apply, col55, val_main_v53_apply, val_main_cst_11_apply, Ideal.ofBits_def]

/-- The graph means: the graph sums over the node count, at least one. -/
theorem mean_at (X : FVec Ideal SNx128 .f32) (E : IVec S2xE 32) (B : IVec SN 32) (Wc : FVec Ideal Cert.GCN.S128x64 .f32)
    (bc : FVec Ideal Cert.GCN.S64 .f32) (g : Fin 256) (j : Fin 64) :
    val_main_v61 (F := Ideal) X E B Wc bc (ix2 g j)
      = Ideal.div (poolR (hidR X Wc (dinvAt (dstOf E)) (wrapOf (srcOf E)) (wrapOf (dstOf E)) (dstOf E) bc) B g j)
          (max (cntAt B g) one) := by
  rw [val_main_v61_apply, pool_at, val_main_v60_apply, val_main_v59_apply, col60, val_main_v58_apply, cnt_at,
    val_main_v57_apply, val_main_cst_13_apply, Ideal.ofBits_def, Ideal.maximumf_def, Ideal.hostDivf_def]

/-- The whole result: the graph means through the last linear map. -/
theorem out_at (X : FVec Ideal SNx128 .f32) (E : IVec S2xE 32) (B : IVec SN 32) (Wc : FVec Ideal Cert.GCN.S128x64 .f32)
    (bc : FVec Ideal Cert.GCN.S64 .f32) (Wl : FVec Ideal Cert.GCN.S64x10 .f32) (bl : FVec Ideal Cert.GCN.S10 .f32)
    (g : Fin 256) (o : Fin 10) :
    val_main_v65 (F := Ideal) X E B Wc bc Wl bl (ix2 g o) = outR X E B Wc bc Wl bl g o := by
  rw [val_main_v65_apply, val_main_v62_apply, val_main_v64_apply, val_main_v63_apply, col64, Ideal.addf_def]
  unfold outR outOf
  refine congrArg₂ (· + ·) (Finset.sum_congr rfl fun k _ => ?_) rfl
  rw [l62, r62, mean_at]

end Stages

/-- The reference run's result term at `(g, o)` is the second formula of the launch arrays. -/
theorem ref_val (m : (ℓ : Loc nD τ sig) → Buf (Elt Ideal) ℓ) (c : Dev nD) (g : Fin 256) (o : Fin 10) :
    (Cert.ReferenceIdeal.Value.res_main_v65 (F := Ideal) m c : S256x10.Idx → EReal) (ix2 g o)
      = outR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) g o := by
  rw [Cert.ReferenceIdeal.Read.val_main_v65_eq]
  exact out_at _ _ _ _ _ _ _ g o

end Cert.ReferenceIdeal.RefValue

end
-- ==== Proof.Bridge.lean ====
import proofs.«425309_j62843961475712_2_alg».proof.Proof.Spec
import Idealize.ShloMosaic.Lib.IdealHost
import Idealize.ShloMosaic.Lib.Pipeline.Value

/-!
# The two formulas agree

Where every target number is non-negative the wrap leaves the targets as they are, so both formulas sum over the same
edges at each node; an edge that lands on node `i` has its clamped target equal to `i`; and with real features and
weights the factor `dinv i` moves inside the finite sum.  The graph sums agree term by term: a graph number below 256
read signed is `g` exactly when the word is the word of `g`.
-/

open scoped BigOperators
open Idealize.ShloMosaic Idealize.ShloMosaic.ValueIdx Idealize.ShloMosaic.StableHlo.Predicate

noncomputable section

namespace Cert.GCN

/-! ## The targets: no negative entry, so the wrap changes nothing -/

/-- Below the given edges' count the targets are the edge array's second row. -/
theorem dstOf_lo (E : IVec S2xE 32) (e : Fin 1700000) (he : e.val < 1600000) :
    dstOf E (ix1 e) = E (ix2 (1 : Fin 2) (⟨e.val, he⟩ : Fin 1600000)) := by
  unfold dstOf endsOf
  refine (concatenate_pair_apply_left (t := SM) (s₁ := SE) (s₂ := SN) (0 : Fin 1) _ _ _ (ix1 e) rfl
    (ix1 (⟨e.val, he⟩ : Fin 1600000)) (fun b => by
      match b with
      | ⟨0, _⟩ => rfl)).trans ?_
  refine (shapeCast_apply _ _ (ix1 (⟨e.val, he⟩ : Fin 1600000)) (ix2 (0 : Fin 1) (⟨e.val, he⟩ : Fin 1600000)) (by
    rw [Shape.rowMajor_val_two, Shape.rowMajor_val_one]; show 0 * 1600000 + e.val = e.val; omega)).trans ?_
  exact extractStridedSlice_apply _ _ _ (ix2 (0 : Fin 1) (⟨e.val, he⟩ : Fin 1600000))
    (ix2 (1 : Fin 2) (⟨e.val, he⟩ : Fin 1600000)) (fun a => by
      match a with
      | ⟨0, _⟩ => rfl
      | ⟨1, _⟩ => show e.val = 0 + e.val; omega)

/-- From the given edges' count on the targets are the node numbers in order. -/
theorem dstOf_hi (E : IVec S2xE 32) (e : Fin 1700000) (he : 1600000 ≤ e.val) :
    dstOf E (ix1 e) = BitVec.ofNat 32 (e.val - 1600000) := by
  unfold dstOf endsOf
  have hlt : e.val - 1600000 < 100000 := by have := e.isLt; omega
  refine (concatenate_pair_apply_right (t := SM) (s₁ := SE) (s₂ := SN) (0 : Fin 1) _ _ _ (ix1 e) rfl rfl
    (ix1 (⟨e.val - 1600000, hlt⟩ : Fin 100000)) (fun b hb => absurd (Fin.ext (by
        have hb1 : b.val < 1 := b.isLt
        show b.val = 0
        omega)) hb) (by
      show e.val - 1600000 + 1600000 = e.val; omega)).trans ?_
  rfl

/-- No target number is negative: the given ones by hypothesis, the self loops' because they count up from zero. -/
theorem dstOf_nonneg (E : IVec S2xE 32) (hE : ∀ e : Fin 1600000, 0 ≤ (E (ix2 1 e)).toInt) (e : Fin 1700000) :
    0 ≤ (dstOf E (ix1 e)).toInt := by
  by_cases he : e.val < 1600000
  · rw [dstOf_lo E e he]; exact hE _
  · have hlt := e.isLt
    rw [dstOf_hi E e (by omega), toInt_ofNat_small _ (by omega)]
    exact Int.natCast_nonneg _

/-- A word that is not negative read signed is left alone by the wrap. -/
theorem wrap_word (v : BitVec 32) (h : 0 ≤ v.toInt) :
    Scalar.select (IntOp.cmpi .slt v 0#32) (IntOp.addi v 100000#32) v = v := by
  have hc : IntOp.cmpi .slt v 0#32 = 0#1 := by
    have : v.slt 0#32 = false := by
      rw [BitVec.slt]
      simp only [BitVec.toInt_zero, decide_eq_false_iff_not, not_lt]
      exact h
    simp only [IntOp.cmpi, this]
    rfl
  rw [hc, select_zero]

/-- The wrap leaves an array with no negative entry as it is. -/
theorem wrapOf_eq (v : IVec SM 32) (h : ∀ e : Fin 1700000, 0 ≤ (v (ix1 e)).toInt) : wrapOf v = v := by
  funext j
  obtain ⟨e, rfl⟩ : ∃ e : Fin 1700000, j = ix1 e := ⟨j 0, eq_ix1 j⟩
  unfold wrapOf
  show Scalar.select (IntOp.cmpi .slt (v (ix1 e)) (broadcastInDim SM ![] _ (constantI S0 32 0#32) (ix1 e)))
    (IntOp.addi (v (ix1 e)) (broadcastInDim SM ![] _ (constantI S0 32 100000#32) (ix1 e))) (v (ix1 e)) = v (ix1 e)
  rw [broadcastInDim_scalar_apply, broadcastInDim_scalar_apply]
  exact wrap_word _ (h e)

/-- An edge whose target read signed is `i` has `i` as its clamped target. -/
theorem rowOf_eq (v : IVec SM 32) (e : Fin 1700000) (i : Fin 100000) (h : (v (ix1 e)).toInt = (i.val : Int)) :
    rowOf v e = i := by
  apply Fin.ext
  show min (v (ix1 e)).toInt.toNat (100000 - 1) = i.val
  rw [h, Int.toNat_natCast]
  have := i.isLt
  omega

/-- For a graph number below 256, a word is the word of `g` exactly when it reads `g` signed. -/
theorem word_eq_iff (b : BitVec 32) (g : Fin 256) : b = BitVec.ofNat 32 g.val ↔ b.toInt = (g.val : Int) := by
  have hg : g.val < 2 ^ 31 := by have := g.isLt; omega
  constructor
  · intro h; rw [h, toInt_ofNat_small _ hg]
  · intro h; apply BitVec.eq_of_toInt_eq; rw [h, toInt_ofNat_small _ hg]

/-- The two ways of summing the nodes of a graph agree for any hidden layer. -/
theorem poolK_eq_poolR (hid : Fin 100000 → Fin 64 → EReal) (B : IVec SN 32) (g : Fin 256) (j : Fin 64) :
    poolK hid B g j = poolR hid B g j := by
  unfold poolK poolR
  rw [zero_add]
  refine Finset.sum_congr rfl fun n _ => ?_
  by_cases h : B (ix1 n) = BitVec.ofNat 32 g.val
  · rw [if_pos h, if_pos ((word_eq_iff _ g).1 h), one_mul]
  · rw [if_neg h, if_neg (fun h' => h ((word_eq_iff _ g).2 h')), zero_mul]

/-! ## The float side: every factor is a real number, and a real factor moves inside a finite sum -/

/-- A finite sum of real numbers read as extended reals is the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real factor moves inside a finite conditional sum of products of reals. -/
theorem sum_ite_mul_real {ι : Type*} [Fintype ι] (p : ι → Prop) [DecidablePred p] (t s : ι → ℝ) (a : ℝ) :
    (0 + ∑ e, if p e then (t e : EReal) * (s e : EReal) else 0) * (a : EReal)
      = 0 + ∑ e, if p e then (t e : EReal) * ((s e : EReal) * (a : EReal)) else 0 := by
  have h1 : ∀ e, (if p e then (t e : EReal) * (s e : EReal) else 0) = (((if p e then t e * s e else 0) : ℝ) : EReal) := by
    intro e; split_ifs <;> simp
  have h2 : ∀ e, (if p e then (t e : EReal) * ((s e : EReal) * (a : EReal)) else 0)
      = (((if p e then t e * (s e * a) else 0) : ℝ) : EReal) := by
    intro e; split_ifs <;> simp
  simp only [h1, h2, coe_sum, zero_add]
  rw [← EReal.coe_mul, Finset.sum_mul]
  congr 1
  refine Finset.sum_congr rfl fun e _ => ?_
  split_ifs
  · ring
  · ring

/-- The same with the factors given as extended reals known to be real, and the inner copy of the outer factor equal to
    it wherever the condition holds. -/
theorem agg_mul {ι : Type*} [Fintype ι] (p : ι → Prop) [DecidablePred p] (T S A : ι → EReal) (a : EReal)
    (hT : ∀ e, ∃ r : ℝ, T e = (r : EReal)) (hS : ∀ e, ∃ r : ℝ, S e = (r : EReal)) (ha : ∃ r : ℝ, a = (r : EReal))
    (hA : ∀ e, p e → A e = a) :
    (0 + ∑ e, if p e then T e * S e else 0) * a = 0 + ∑ e, if p e then T e * (S e * A e) else 0 := by
  choose t ht using hT
  choose s hs using hS
  obtain ⟨r, rfl⟩ := ha
  have h : ∀ e, (if p e then T e * (S e * A e) else 0) = (if p e then (t e : EReal) * ((s e : EReal) * (r : EReal)) else 0) := by
    intro e
    by_cases hp : p e
    · rw [if_pos hp, if_pos hp, hA e hp, ht, hs]
    · rw [if_neg hp, if_neg hp]
  simp only [h]
  simp only [ht, hs]
  exact sum_ite_mul_real p t s r

/-- The word of one is the number one. -/
theorem one_eq : one = (1 : EReal) := Ideal.ofBits_one_f32

/-- The reciprocal square root of anything at least one is a real number. -/
theorem rsqrt_real_of_one_le (y : EReal) (h : 1 ≤ y) : ∃ r : ℝ, Ideal.rsqrt y = (r : EReal) := by
  induction y using EReal.rec with
  | bot => exact absurd h (not_le.2 (EReal.bot_lt_coe 1))
  | top => exact ⟨0, by simp⟩
  | coe r =>
    have hr : (1 : ℝ) ≤ r := by exact_mod_cast h
    refine ⟨(Real.sqrt r)⁻¹, ?_⟩
    rw [Ideal.rsqrt_coe, if_neg (by linarith), if_neg (by linarith)]

/-- The normalising factor of every node is a real number. -/
theorem dinvAt_real (dst : IVec SM 32) (i : Fin 100000) : ∃ r : ℝ, dinvAt dst i = (r : EReal) := by
  unfold dinvAt
  split_ifs with h
  · exact rsqrt_real_of_one_le _ (by rw [one_eq]; exact le_max_right _ _)
  · exact ⟨0, by simp⟩

/-- With real features and weights every transformed feature is a real number. -/
theorem hmat_real (X : FVec Ideal SNx128 .f32) (Wc : FVec Ideal S128x64 .f32)
    (hX : ∀ (i : Fin 100000) (k : Fin 128), ∃ r : ℝ, X (ix2 i k) = (r : EReal))
    (hW : ∀ (k : Fin 128) (j : Fin 64), ∃ r : ℝ, Wc (ix2 k j) = (r : EReal)) (i : Fin 100000) (j : Fin 64) :
    ∃ r : ℝ, hmat X Wc i j = (r : EReal) := by
  choose x hx using hX
  choose w hw using hW
  refine ⟨∑ k : Fin 128, x i k * w k j, ?_⟩
  unfold hmat
  simp only [hx, hw, ← EReal.coe_mul]
  exact coe_sum _ _

/-! ## The hidden layers agree -/

/-- Weighting the sum at node `i` afterwards is weighting every message that lands on `i`. -/
theorem hidK_eq_hidR (X : FVec Ideal SNx128 .f32) (E : IVec S2xE 32) (Wc : FVec Ideal S128x64 .f32)
    (bc : FVec Ideal S64 .f32)
    (hX : ∀ (i : Fin 100000) (k : Fin 128), ∃ r : ℝ, X (ix2 i k) = (r : EReal))
    (hW : ∀ (k : Fin 128) (j : Fin 64), ∃ r : ℝ, Wc (ix2 k j) = (r : EReal))
    (hE : ∀ e : Fin 1600000, 0 ≤ (E (ix2 1 e)).toInt) (i : Fin 100000) (j : Fin 64) :
    hidK X Wc (dinvAt (dstOf E)) (wrapOf (srcOf E)) (wrapOf (dstOf E)) bc i j
      = hidR X Wc (dinvAt (dstOf E)) (wrapOf (srcOf E)) (wrapOf (dstOf E)) (dstOf E) bc i j := by
  rw [wrapOf_eq (dstOf E) (dstOf_nonneg E hE)]
  have key : aggK X Wc (dinvAt (dstOf E)) (wrapOf (srcOf E)) (dstOf E) i j * dinvAt (dstOf E) i
      = aggR X Wc (dinvAt (dstOf E)) (wrapOf (srcOf E)) (dstOf E) (dstOf E) i j := by
    unfold aggK aggR
    exact agg_mul (fun e : Fin 1700000 => (dstOf E (ix1 e)).toInt = (i.val : Int))
      (fun e => hmat X Wc (rowOf (wrapOf (srcOf E)) e) j)
      (fun e => dinvAt (dstOf E) (rowOf (wrapOf (srcOf E)) e))
      (fun e => dinvAt (dstOf E) (rowOf (dstOf E) e)) (dinvAt (dstOf E) i)
      (fun e => hmat_real X Wc hX hW _ j) (fun e => dinvAt_real _ _) (dinvAt_real _ _)
      (fun e he => by rw [rowOf_eq (dstOf E) e i he])
  unfold hidK hidR
  rw [key]

/-! ## The two formulas -/

/-- With finite features and weights, and no negative target number among the edges given, the two formulas give the
    same number at every graph and output column. -/
theorem outK_eq_outR (X : FVec Ideal SNx128 .f32) (E : IVec S2xE 32) (B : IVec SN 32) (Wc : FVec Ideal S128x64 .f32)
    (bc : FVec Ideal S64 .f32) (Wl : FVec Ideal S64x10 .f32) (bl : FVec Ideal S10 .f32)
    (hX : ∀ (i : Fin 100000) (k : Fin 128), ∃ r : ℝ, X (ix2 i k) = (r : EReal))
    (hW : ∀ (k : Fin 128) (j : Fin 64), ∃ r : ℝ, Wc (ix2 k j) = (r : EReal))
    (hE : ∀ e : Fin 1600000, 0 ≤ (E (ix2 1 e)).toInt) (g : Fin 256) (o : Fin 10) :
    outK X E B Wc bc Wl bl g o = outR X E B Wc bc Wl bl g o := by
  unfold outK outR
  have hhid : hidK X Wc (dinvAt (dstOf E)) (wrapOf (srcOf E)) (wrapOf (dstOf E)) bc
      = hidR X Wc (dinvAt (dstOf E)) (wrapOf (srcOf E)) (wrapOf (dstOf E)) (dstOf E) bc :=
    funext fun i => funext fun j => hidK_eq_hidR X E Wc bc hX hW hE i j
  have hpool : ∀ hid : Fin 100000 → Fin 64 → EReal, poolK hid B = poolR hid B :=
    fun hid => funext fun g => funext fun j => poolK_eq_poolR hid B g j
  rw [hhid, hpool]

end Cert.GCN

end
-- ==== Proof.PreDecode.lean ====
import proofs.«425309_j62843961475712_2_alg».proof.Pre_finite_inputs
import proofs.«425309_j62843961475712_2_alg».proof.Proof.Gen.Pre_finite_inputs
import proofs.«425309_j62843961475712_2_alg».proof.Proof.Spec
import Idealize.ShloMosaic.Lib.ReduceAll
import Idealize.ShloMosaic.Lib.StableHlo.Predicate

/-!
# What the precondition says

The precondition is a conjunction of whole-array tests: every entry of each float argument is below `+∞` in absolute
value, and every entry of the second row of the edge array is at least zero.  Read entry by entry: the features and
the first weight matrix are real numbers, and no target number is negative.
-/

open Idealize.ShloMosaic Idealize.ShloMosaic.ValueIdx

noncomputable section

namespace Cert.GCN

/-! ## One entry of each test -/

/-- The scalar shape has one index. -/
instance subsingleton_scalar_idx : Subsingleton (⟨0, ![]⟩ : Shape).Idx := ⟨fun _ _ => funext fun d => d.elim0⟩

/-- The word of `+∞`. -/
theorem ofBits_inf : Ideal.ofBits .f32 0x7F800000#32 = (⊤ : EReal) := by simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  have hlt : max x (-x) < ⊤ := by
    by_contra hn
    simp [hn] at h
  rw [max_lt_iff] at hlt
  induction x using EReal.rec with
  | bot => exact absurd hlt.2 (by simp)
  | coe r => exact ⟨r, rfl⟩
  | top => exact absurd hlt.1 (by simp)

/-- A whole-array test "every entry is below `+∞` in absolute value" that came out true says every entry is real. -/
theorem real_of_all_finite {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (h : Host.reduce IntOp.andi
          (cmpf .olt (Host.absf x) (broadcastInDim s ![] hb (constant (F := Ideal) ⟨0, ![]⟩ .f32 0x7F800000#32)))
          (constantI ⟨0, ![]⟩ 1 1#1) hr h0 ix0 = 1#1) (i : s.Idx) : ∃ r : ℝ, x i = (r : EReal) :=
  real_of_abs_lt_inf (x i) (Host.reduce_andi_all _ _ hr h0 ix0 h i)

/-- A word that is at least the zero word, read signed, is not negative. -/
theorem nonneg_of_sge_zero (a : BitVec 32) (h : IntOp.cmpi .sge a 0#32 = 1#1) : 0 ≤ a.toInt := by
  unfold IntOp.cmpi at h
  simp only [StableHlo.Predicate.ofBool_eq_one_iff, BitVec.sle, decide_eq_true_eq] at h
  simpa using h

/-- Entry `e` of the second row of the edge array, cut out and flattened, is the array's entry `(1, e)`. -/
theorem row_one_apply (E : IVec S2xE 32) (hs : S2xE.Slices ![1, 0] S1xE) (hc : S1xE.ShapeCasts SE) (e : Fin 1600000) :
    shapeCast SE (extractStridedSlice S1xE ![1, 0] E hs) hc (ix1 e) = E (ix2 1 e) := by
  unfold shapeCast
  have hk : Shape.reshapeEquiv hc (ix1 e) = (ix2 (0 : Fin 1) e : S1xE.Idx) :=
    Shape.reshapeEquiv_eq_of_rowMajor hc (by
      rw [Shape.rowMajor_val_two, Shape.rowMajor_val_one]
      show 0 * 1600000 + e.val = e.val
      omega)
  rw [hk]
  unfold extractStridedSlice
  refine congrArg E (funext fun a => Fin.ext ?_)
  match a with
  | ⟨0, _⟩ => rfl
  | ⟨1, _⟩ => show 0 + e.val = e.val; omega

/-- From the precondition: the features are real, the first weights are real, and the targets the edge array names are
    non-negative. -/
theorem pre_decode [Cert.Pre_finite_inputs.Facts]
    (a0 : FVec Ideal SNx128 .f32) (a1 : IVec S2xE 32) (a2 : IVec SN 32) (a3 : FVec Ideal S128x64 .f32)
    (a4 : FVec Ideal S64 .f32) (a5 : FVec Ideal S64x10 .f32) (a6 : FVec Ideal S10 .f32)
    (h : Cert.Pre_finite_inputs.fn (F := Ideal) a0 a1 a2 a3 a4 a5 a6 = fun _ => 1#1) :
    (∀ (i : Fin 100000) (k : Fin 128), ∃ r : ℝ, a0 (ix2 i k) = (r : EReal))
    ∧ (∀ (k : Fin 128) (j : Fin 64), ∃ r : ℝ, a3 (ix2 k j) = (r : EReal))
    ∧ (∀ e : Fin 1600000, 0 ≤ (a1 (ix2 1 e)).toInt) := by
  -- the one entry of the scalar result, as the conjunction of the six whole-array tests
  have h' := congrFun h ix0
  unfold Cert.Pre_finite_inputs.fn Cert.Pre_finite_inputs.fn_part1 at h'
  dsimp only at h'
  obtain ⟨hA, hE⟩ := IntOp.andi_eq_one.1 h'
  obtain ⟨hB, _⟩ := IntOp.andi_eq_one.1 hA
  obtain ⟨hC, _⟩ := IntOp.andi_eq_one.1 hB
  obtain ⟨hD, _⟩ := IntOp.andi_eq_one.1 hC
  obtain ⟨hX, hW⟩ := IntOp.andi_eq_one.1 hD
  refine ⟨fun i k => real_of_all_finite a0 _ _ _ hX (ix2 i k), fun k j => real_of_all_finite a3 _ _ _ hW (ix2 k j),
    fun e => ?_⟩
  -- the test on the second row of the edge array, at entry `e`
  have hge : IntOp.cmpi .sge
      (shapeCast SE (extractStridedSlice S1xE ![1, 0] a1 Cert.Pre_finite_inputs.Facts.slices_S2x1600000_S1x1600000_1_0)
        Cert.Pre_finite_inputs.Facts.shapeCasts_S1x1600000_S1600000 (ix1 e)) 0#32 = 1#1 :=
    Host.reduce_andi_all _ _ _ _ ix0 hE (ix1 e)
  rw [row_one_apply] at hge
  exact nonneg_of_sge_zero _ hge

end Cert.GCN

end
-- ==== Proof.lean ====
/-
  A graph-convolution layer pooled by graph, computed two ways, gives one result over the extended reals.

  The kernel program transforms the node features by a dense product scaled by the inverse square root of each node's
  in-degree (first region), gathers the scaled rows along the edges and sums them at the edges' targets with plain
  array operations, rescales the sums at the targets, adds the bias, clips at zero and sums the nodes of each graph as a
  product with the graph-membership matrix, block by block (second region), and divides by the graphs' node counts and
  applies the last linear map (third region).  The reference weights every gathered row by both ends' factors before
  the sum and sums the graphs' nodes as a segment sum.

  Under the precondition — finite float inputs, and no negative target number in the edge array, without which the
  kernel program's wrapped targets and the reference's unwrapped ones address different nodes — the two results agree
  entry by entry: the targets are the same numbers, an edge that lands on node `i` carries the factor of `i`, and
  with real summands the factor of the target moves across the finite sum; the membership product and the segment sum
  select the same rows.

  The three frame claims are the generated frame certificates and the reference's run with the result dropped; the
  idealization rewrote nothing, so its claim is trivial.
-/
import proofs.«425309_j62843961475712_2_alg».proof.Defs
import proofs.«425309_j62843961475712_2_alg».proof.Proof.Gen.Kernel
import proofs.«425309_j62843961475712_2_alg».proof.Proof.Gen.Kernel.Skeleton
import proofs.«425309_j62843961475712_2_alg».proof.Proof.Gen.Kernel.Launch
import proofs.«425309_j62843961475712_2_alg».proof.Proof.Gen.Kernel.Points
import proofs.«425309_j62843961475712_2_alg».proof.Proof.Gen.Kernel.Frame
import proofs.«425309_j62843961475712_2_alg».proof.Proof.Gen.KernelIdeal
import proofs.«425309_j62843961475712_2_alg».proof.Proof.Gen.KernelIdeal.Skeleton
import proofs.«425309_j62843961475712_2_alg».proof.Proof.Gen.KernelIdeal.Launch
import proofs.«425309_j62843961475712_2_alg».proof.Proof.Gen.KernelIdeal.Points
import proofs.«425309_j62843961475712_2_alg».proof.Proof.Gen.KernelIdeal.Frame
import proofs.«425309_j62843961475712_2_alg».proof.Proof.Gen.ReferenceIdeal
import proofs.«425309_j62843961475712_2_alg».proof.Proof.Gen.Pre_finite_inputs
import proofs.«425309_j62843961475712_2_alg».proof.Proof.RefRead
import proofs.«425309_j62843961475712_2_alg».proof.Proof.KRun
import proofs.«425309_j62843961475712_2_alg».proof.Proof.KVal
import proofs.«425309_j62843961475712_2_alg».proof.Proof.RefValue
import proofs.«425309_j62843961475712_2_alg».proof.Proof.Bridge
import proofs.«425309_j62843961475712_2_alg».proof.Proof.PreDecode
import Idealize.ShloMosaic.Adequacy
import Idealize.ShloMosaic.Init

noncomputable section

namespace Cert.Proof

open Idealize.ShloMosaic Idealize.SL.Sem Idealize.ShloMosaic.ValueIdx

/-- The kernel program as printed runs and leaves its arguments as launched. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- So does the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the arguments both programs end with the first formula's value in their result
    arrays: the kernel program by its three regions chained, the reference by its run read entry by entry as the
    second formula, and the two formulas agree under the precondition. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Gen.W8 m ρ c (Proc.devRef .tc Cert.KernelIdeal.main_v45),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  funext idx
  obtain ⟨g, o, rfl⟩ : ∃ (g : Fin 256) (o : Fin 10), idx = ix2 g o := ⟨idx 0, idx 1, eq_ix2 idx⟩
  obtain ⟨hX, hW, hE⟩ := @Cert.GCN.pre_decode Cert.Pre_finite_inputs.Gen.facts _ _ _ _ _ _ _ (hpre c)
  refine (Cert.ReferenceIdeal.RefValue.ref_val m' c g o).trans ?_
  rw [(hagree c).1, (hagree c).2.1, (hagree c).2.2.1, (hagree c).2.2.2.1, (hagree c).2.2.2.2.1,
    (hagree c).2.2.2.2.2.1, (hagree c).2.2.2.2.2.2]
  refine (Cert.GCN.outK_eq_outR _ _ _ _ _ _ _ hX hW hE g o).symm.trans ?_
  exact (Cert.KernelIdeal.Val.kernel_val m ρ c g o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
